-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1x8192x256 : Shape := ⟨3, ![1, 8192, 256]⟩
abbrev S1x8192 : Shape := ⟨2, ![1, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x256 .f32) (main_arg1 : FVec F S1x8192x256 .f32) (main_arg2 : FVec F S1x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S4096x1 : Shape := ⟨2, ![4096, 1]⟩
abbrev S4096 : Shape := ⟨1, ![4096]⟩
abbrev S256x256 : Shape := ⟨2, ![256, 256]⟩
abbrev S256x1 : Shape := ⟨2, ![256, 1]⟩
abbrev S256x8192 : Shape := ⟨2, ![256, 8192]⟩
abbrev S1024x256 : Shape := ⟨2, ![1024, 256]⟩
abbrev S256x1024 : Shape := ⟨2, ![256, 1024]⟩
abbrev S1x1024 : Shape := ⟨2, ![1, 1024]⟩
abbrev S256 : Shape := ⟨1, ![256]⟩

abbrev nBuf : Space → Nat
  | .hbm => 8
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S8192x256, .bf16⟩
  | .hbm, ⟨5, _⟩ => ⟨S4096x256, .f32⟩
  | .hbm, ⟨6, _⟩ => ⟨S4096x1, .f32⟩
  | .hbm, ⟨7, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S8192x256, .bf16⟩
  | .local _ .vmem, ⟨4, _⟩ => ⟨S1x8192, .f32⟩
  | .local _ .vmem, ⟨5, _⟩ => ⟨S256x256, .f32⟩
  | .local _ .vmem, ⟨6, _⟩ => ⟨S256x256, .f32⟩
  | .local _ .vmem, ⟨7, _⟩ => ⟨S256x1, .f32⟩
  | .local _ .vmem, ⟨8, _⟩ => ⟨S256x1, .f32⟩
  | .local _ .vmem, ⟨9, _⟩ => ⟨S256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_call0_v2_1 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x8192x256_S8192x256 : S1x8192x256.ShapeCasts S8192x256
  bitsLt_bf16_f32 : FTy.bits .bf16 < FTy.bits .f32
  shapeCasts_S4096x1_S4096 : S4096x1.ShapeCasts S4096
  inb_S256x256_S256x256_0_0 : ∀ a, (![0, 0] : Fin 2 → Nat) a + S256x256.size a ≤ S256x256.size a
  h_S256x256 : 0 < S256x256.numel
  inb_S8192x256_S1024x256_0_0 : ∀ a, (![0, 0] : Fin 2 → Nat) a + S1024x256.size a ≤ S8192x256.size a
  h_S1024x256 : 0 < S1024x256.numel
  shapeCasts_S1024x256_S1024x256 : S1024x256.ShapeCasts S1024x256
  inb_S1x8192_S1x1024_0_0 : ∀ a, (![0, 0] : Fin 2 → Nat) a + S1x1024.size a ≤ S1x8192.size a
  h_S1x1024 : 0 < S1x1024.numel
  broadcasts_S1x1024_S256x1024 : S1x1024.Broadcasts S256x1024
  inb_S256x8192_S256x1024_0_0 : ∀ a, (![0, 0] : Fin 2 → Nat) a + S256x1024.size a ≤ S256x8192.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  inb_S8192x256_S1024x256_1024_0 : ∀ a, (![1024, 0] : Fin 2 → Nat) a + S1024x256.size a ≤ S8192x256.size a
  inb_S1x8192_S1x1024_0_1024 : ∀ a, (![0, 1024] : Fin 2 → Nat) a + S1x1024.size a ≤ S1x8192.size a
  inb_S256x8192_S256x1024_0_1024 : ∀ a, (![0, 1024] : Fin 2 → Nat) a + S256x1024.size a ≤ S256x8192.size a
  inb_S8192x256_S1024x256_2048_0 : ∀ a, (![2048, 0] : Fin 2 → Nat) a + S1024x256.size a ≤ S8192x256.size a
  inb_S1x8192_S1x1024_0_2048 : ∀ a, (![0, 2048] : Fin 2 → Nat) a + S1x1024.size a ≤ S1x8192.size a
  inb_S256x8192_S256x1024_0_2048 : ∀ a, (![0, 2048] : Fin 2 → Nat) a + S256x1024.size a ≤ S256x8192.size a
  inb_S8192x256_S1024x256_3072_0 : ∀ a, (![3072, 0] : Fin 2 → Nat) a + S1024x256.size a ≤ S8192x256.size a
  inb_S1x8192_S1x1024_0_3072 : ∀ a, (![0, 3072] : Fin 2 → Nat) a + S1x1024.size a ≤ S1x8192.size a
  inb_S256x8192_S256x1024_0_3072 : ∀ a, (![0, 3072] : Fin 2 → Nat) a + S256x1024.size a ≤ S256x8192.size a
  inb_S8192x256_S1024x256_4096_0 : ∀ a, (![4096, 0] : Fin 2 → Nat) a + S1024x256.size a ≤ S8192x256.size a
  inb_S1x8192_S1x1024_0_4096 : ∀ a, (![0, 4096] : Fin 2 → Nat) a + S1x1024.size a ≤ S1x8192.size a
  inb_S256x8192_S256x1024_0_4096 : ∀ a, (![0, 4096] : Fin 2 → Nat) a + S256x1024.size a ≤ S256x8192.size a
  inb_S8192x256_S1024x256_5120_0 : ∀ a, (![5120, 0] : Fin 2 → Nat) a + S1024x256.size a ≤ S8192x256.size a
  inb_S1x8192_S1x1024_0_5120 : ∀ a, (![0, 5120] : Fin 2 → Nat) a + S1x1024.size a ≤ S1x8192.size a
  inb_S256x8192_S256x1024_0_5120 : ∀ a, (![0, 5120] : Fin 2 → Nat) a + S256x1024.size a ≤ S256x8192.size a
  inb_S8192x256_S1024x256_6144_0 : ∀ a, (![6144, 0] : Fin 2 → Nat) a + S1024x256.size a ≤ S8192x256.size a
  inb_S1x8192_S1x1024_0_6144 : ∀ a, (![0, 6144] : Fin 2 → Nat) a + S1x1024.size a ≤ S1x8192.size a
  inb_S256x8192_S256x1024_0_6144 : ∀ a, (![0, 6144] : Fin 2 → Nat) a + S256x1024.size a ≤ S256x8192.size a
  inb_S8192x256_S1024x256_7168_0 : ∀ a, (![7168, 0] : Fin 2 → Nat) a + S1024x256.size a ≤ S8192x256.size a
  inb_S1x8192_S1x1024_0_7168 : ∀ a, (![0, 7168] : Fin 2 → Nat) a + S1x1024.size a ≤ S1x8192.size a
  inb_S256x8192_S256x1024_0_7168 : ∀ a, (![0, 7168] : Fin 2 → Nat) a + S256x1024.size a ≤ S256x8192.size a
  broadcasts_S256x1_S256x1024 : S256x1.Broadcasts S256x1024
  inb_S256x1_S256x1_0_0 : ∀ a, (![0, 0] : Fin 2 → Nat) a + S256x1.size a ≤ S256x1.size a
  h_S256x1 : 0 < S256x1.numel
  broadcasts_S256x1_S256x256 : S256x1.Broadcasts S256x256
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .f32 = 32 ∨ (Rect.block (s := S4096x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S256x8192 : Shape := ⟨2, ![256, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S256x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  shapeCasts_S1x8192x256_S8192x256 : S1x8192x256.ShapeCasts S8192x256
  transposes_S8192x256_S256x8192_1_0 : S8192x256.Transposes [1, 0] S256x8192
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Soft.lean ====
/-
  The row-level mathematics both programs compute.

  A row of scores `s k = ⟨x, y k⟩ + b k` over a finite set `K` of candidates is turned into a soft selection:
  the spread of the row, floored at `f32 1e-3`, sets an adaptive temperature `T = min 5000 (max 50 (50 / spread))`;
  the candidates are weighted by `exp (s k · T − shift)` and the weights normalised by their sum; the results are
  the weighted mean of the scores and, per coordinate, of the candidates.

  Two arrangements of this are written down. In the first (`wgt`, `meanScore`, `meanCand`) the shift is the row's
  maximum times the temperature, the unnormalised sums are formed first and then multiplied by the reciprocal of
  the weights' sum. In the second (`shifted`, `softWgt`, `softScore`, `softCand`) the scaled row is shifted by its own
  maximum, then once more by the maximum of what is left, each weight is divided by the sum, and the normalised
  weights are summed against the scores and the candidates. Over finite scores the two agree (SoftLaw.lean).

  Everything is stated on the extended reals with the exact operations of the ideal float instance; the float
  literals stay as the patterns the programs print, so that the same pattern on both sides is never evaluated.
-/
import Idealize.ShloMosaic.PureOps.Ideal

noncomputable section

namespace Cert.Soft

open Idealize.ShloMosaic

/-- The literals, as the extended reals their f32 patterns denote: the spread's floor `1e-3`, the base temperature
    `50` and its cap `5000`, `1`, `0`, and the two infinities the extrema start from. -/
def spanFloor : EReal := Ideal.ofBits .f32 0x3A83126F#32
def tempLo : EReal := Ideal.ofBits .f32 0x42480000#32
def tempHi : EReal := Ideal.ofBits .f32 0x459C4000#32
def one32 : EReal := Ideal.ofBits .f32 0x3F800000#32
def zero32 : EReal := Ideal.ofBits .f32 0x00000000#32
def negInf32 : EReal := Ideal.ofBits .f32 0xFF800000#32
def posInf32 : EReal := Ideal.ofBits .f32 0x7F800000#32

variable {K : Type} [Fintype K]

/-- A row's maximum, from `-∞`, and its minimum, from `+∞`. -/
def rowMax (s : K → EReal) : EReal := Finset.univ.fold max negInf32 s
def rowMin (s : K → EReal) : EReal := Finset.univ.fold min posInf32 s

/-- The adaptive temperature of a row: `50` over the floored spread, clipped to `[50, 5000]`. -/
def temp (s : K → EReal) : EReal :=
  min tempHi (max tempLo (Ideal.div tempLo (max (rowMax s - rowMin s) spanFloor)))

/-- The score of candidate `k`: its inner product with `x` plus its intercept. -/
def score {J : Type} [Fintype J] (x : J → EReal) (y : K → J → EReal) (b : K → EReal) (k : K) : EReal :=
  (∑ j, x j * y k j) + b k

/-! ## First arrangement: sums first, one reciprocal at the end -/

/-- The unnormalised weight of candidate `k`: the scaled score shifted by the scaled maximum. -/
def wgt (s : K → EReal) (k : K) : EReal := Ideal.exp (s k * temp s - rowMax s * temp s)

/-- The reciprocal of the weights' sum. -/
def recipSum (s : K → EReal) : EReal := Ideal.div one32 (∑ k, wgt s k)

/-- The weighted mean of the scores. -/
def meanScore (s : K → EReal) : EReal := (∑ k, wgt s k * s k) * recipSum s

/-- The weighted mean of one coordinate `c` of the candidates. -/
def meanCand (s : K → EReal) (c : K → EReal) : EReal := (∑ k, wgt s k * c k) * recipSum s

/-! ## Second arrangement: shift twice, normalise each weight, then sum -/

/-- The scaled row shifted by its maximum. -/
def shifted (s : K → EReal) (k : K) : EReal := s k * temp s - rowMax fun k' => s k' * temp s

/-- Shifted once more by the maximum of what is left (guarded by `-∞`). -/
def shifted2 (s : K → EReal) (k : K) : EReal := shifted s k - max negInf32 (rowMax (shifted s))

/-- The normalised weight: each exponential over the sum of them all (from `0`). -/
def softWgt (s : K → EReal) (k : K) : EReal :=
  Ideal.div (Ideal.exp (shifted2 s k)) (zero32 + ∑ k', Ideal.exp (shifted2 s k'))

/-- The normalised weights summed against the scores (from `0`) … -/
def softScore (s : K → EReal) : EReal := zero32 + ∑ k, softWgt s k * s k

/-- … and against one coordinate of the candidates. -/
def softCand (s : K → EReal) (c : K → EReal) : EReal := ∑ k, softWgt s k * c k

end Cert.Soft

end
-- ==== Proof.Tiles.lean ====
/-
  A row of 8192 candidates read as eight tiles of 1024: the row's sum, maximum and minimum are those of the tiles,
  combined tile after tile from the left.
-/
import Mathlib.Data.EReal.Basic
import Mathlib.Algebra.BigOperators.Fin
import Mathlib.Data.Finset.Fold
import Mathlib.Tactic.FinCases

noncomputable section

namespace Cert.Tiles

/-- Candidate `l` of tile `t`. -/
def cand (t : Fin 8) (l : Fin 1024) : Fin 8192 := ⟨t.val * 1024 + l.val, by omega⟩

theorem cand_val (t : Fin 8) (l : Fin 1024) : (cand t l).val = t.val * 1024 + l.val := rfl

/-- The tiles cover the row exactly once: `(t, l) ↦ t·1024 + l` is a bijection, with inverse `k ↦ (k / 1024, k % 1024)`. -/
private def candEquiv : Fin 8 × Fin 1024 ≃ Fin 8192 where
  toFun p := cand p.1 p.2
  invFun k := (⟨k.val / 1024, by omega⟩, ⟨k.val % 1024, by omega⟩)
  left_inv p := by
    rcases p with ⟨t, l⟩
    refine Prod.ext (Fin.ext ?_) (Fin.ext ?_)
    · show (t.val * 1024 + l.val) / 1024 = t.val
      omega
    · show (t.val * 1024 + l.val) % 1024 = l.val
      omega
  right_inv k := Fin.ext (by
    show k.val / 1024 * 1024 + k.val % 1024 = k.val
    omega)

/-- A statement about every candidate of every tile is a statement about every candidate of the row. -/
private theorem forall_cand {p : Fin 8192 → Prop} (h : ∀ t l, p (cand t l)) (k : Fin 8192) : p k := by
  have := h (candEquiv.symm k).1 (candEquiv.symm k).2
  rwa [show cand (candEquiv.symm k).1 (candEquiv.symm k).2 = k from candEquiv.apply_symm_apply k] at this

/-- The row's sum is the tiles' sums added one after the other, from zero. -/
theorem sum_eight (f : Fin 8192 → EReal) :
    ∑ k, f k = 0 + (∑ l, f (cand 0 l)) + (∑ l, f (cand 1 l)) + (∑ l, f (cand 2 l)) + (∑ l, f (cand 3 l))
      + (∑ l, f (cand 4 l)) + (∑ l, f (cand 5 l)) + (∑ l, f (cand 6 l)) + (∑ l, f (cand 7 l)) := by
  -- re-index the row by (tile, position), sum tile by tile, and spell the eight tiles out
  rw [← candEquiv.sum_comp f, Fintype.sum_prod_type, Fin.sum_univ_eight, zero_add]
  rfl

/-- The row's maximum from `a` is the maximum of the tiles' maxima from `a`, taken one after the other. -/
theorem max_eight (a : EReal) (f : Fin 8192 → EReal) :
    Finset.univ.fold max a f
      = max (max (max (max (max (max (max
          (Finset.univ.fold max a fun l => f (cand 0 l)) (Finset.univ.fold max a fun l => f (cand 1 l)))
          (Finset.univ.fold max a fun l => f (cand 2 l))) (Finset.univ.fold max a fun l => f (cand 3 l)))
          (Finset.univ.fold max a fun l => f (cand 4 l))) (Finset.univ.fold max a fun l => f (cand 5 l)))
          (Finset.univ.fold max a fun l => f (cand 6 l))) (Finset.univ.fold max a fun l => f (cand 7 l)) := by
  -- both sides have the same upper bounds: `c` bounds `a` and every candidate, tile by tile or all at once
  refine eq_of_forall_ge_iff fun c => ?_
  simp only [max_le_iff, Finset.fold_max_le, Finset.mem_univ, forall_true_left]
  constructor
  · rintro ⟨ha, hf⟩
    exact ⟨⟨⟨⟨⟨⟨⟨⟨ha, fun _ => hf _⟩, ha, fun _ => hf _⟩, ha, fun _ => hf _⟩, ha, fun _ => hf _⟩, ha, fun _ => hf _⟩,
      ha, fun _ => hf _⟩, ha, fun _ => hf _⟩, ha, fun _ => hf _⟩
  · rintro ⟨⟨⟨⟨⟨⟨⟨⟨ha, h0⟩, -, h1⟩, -, h2⟩, -, h3⟩, -, h4⟩, -, h5⟩, -, h6⟩, -, h7⟩
    refine ⟨ha, forall_cand fun t l => ?_⟩
    fin_cases t
    exacts [h0 l, h1 l, h2 l, h3 l, h4 l, h5 l, h6 l, h7 l]

/-- The same for the minimum. -/
theorem min_eight (a : EReal) (f : Fin 8192 → EReal) :
    Finset.univ.fold min a f
      = min (min (min (min (min (min (min
          (Finset.univ.fold min a fun l => f (cand 0 l)) (Finset.univ.fold min a fun l => f (cand 1 l)))
          (Finset.univ.fold min a fun l => f (cand 2 l))) (Finset.univ.fold min a fun l => f (cand 3 l)))
          (Finset.univ.fold min a fun l => f (cand 4 l))) (Finset.univ.fold min a fun l => f (cand 5 l)))
          (Finset.univ.fold min a fun l => f (cand 6 l))) (Finset.univ.fold min a fun l => f (cand 7 l)) := by
  -- both sides have the same lower bounds: `c` is below `a` and every candidate, tile by tile or all at once
  refine eq_of_forall_le_iff fun c => ?_
  simp only [le_min_iff, Finset.le_fold_min, Finset.mem_univ, forall_true_left]
  constructor
  · rintro ⟨ha, hf⟩
    exact ⟨⟨⟨⟨⟨⟨⟨⟨ha, fun _ => hf _⟩, ha, fun _ => hf _⟩, ha, fun _ => hf _⟩, ha, fun _ => hf _⟩, ha, fun _ => hf _⟩,
      ha, fun _ => hf _⟩, ha, fun _ => hf _⟩, ha, fun _ => hf _⟩
  · rintro ⟨⟨⟨⟨⟨⟨⟨⟨ha, h0⟩, -, h1⟩, -, h2⟩, -, h3⟩, -, h4⟩, -, h5⟩, -, h6⟩, -, h7⟩
    refine ⟨ha, forall_cand fun t l => ?_⟩
    fin_cases t
    exacts [h0 l, h1 l, h2 l, h3 l, h4 l, h5 l, h6 l, h7 l]

end Cert.Tiles

end
-- ==== Proof.TileSoft.lean ====
/-
  The soft selection of a row walked tile by tile.

  The row's 8192 scores are given as eight tiles `S t` of 1024. The row's maximum and minimum are the tiles' extrema
  combined one after the other; the temperature and the weights are as in Soft.lean's first arrangement; the weights'
  sum, their sum against the scores and their sum against a coordinate of the candidates are accumulated tile after
  tile from zero; one reciprocal normalises at the end. This is that arrangement of the whole row (`value_eq`,
  `choice_eq`): sums and extrema over the row split into the tiles' (Tiles.lean).
-/
import proofs.«115138_g88089779241353_cont_9to1c4b_404_6_alg».proof.Proof.Soft
import proofs.«115138_g88089779241353_cont_9to1c4b_404_6_alg».proof.Proof.Tiles
import Idealize.ShloMosaic.PureOps.Ideal.Laws

noncomputable section

namespace Cert.TileSoft

open Idealize.ShloMosaic Cert.Soft Cert.Tiles

variable (S : Fin 8 → Fin 1024 → EReal)

/-- A tile's maximum from `-∞` and minimum from `+∞`. -/
def tmax (t : Fin 8) : EReal := Finset.univ.fold max negInf32 (S t)
def tmin (t : Fin 8) : EReal := Finset.univ.fold min posInf32 (S t)

/-- The row's maximum and minimum, tile after tile. -/
def rmax : EReal := max (max (max (max (max (max (max (tmax S 0) (tmax S 1)) (tmax S 2)) (tmax S 3)) (tmax S 4)) (tmax S 5)) (tmax S 6)) (tmax S 7)
def rmin : EReal := min (min (min (min (min (min (min (tmin S 0) (tmin S 1)) (tmin S 2)) (tmin S 3)) (tmin S 4)) (tmin S 5)) (tmin S 6)) (tmin S 7)

/-- The row's temperature. -/
def rtemp : EReal := min tempHi (max tempLo (Ideal.div tempLo (max (rmax S - rmin S) spanFloor)))

/-- The weight of candidate `l` of tile `t`. -/
def w (t : Fin 8) (l : Fin 1024) : EReal := Ideal.exp (S t l * rtemp S - rmax S * rtemp S)

/-- The weights' sum, tile after tile from zero. -/
def den : EReal := zero32 + (∑ l, w S 0 l) + (∑ l, w S 1 l) + (∑ l, w S 2 l) + (∑ l, w S 3 l) + (∑ l, w S 4 l) + (∑ l, w S 5 l) + (∑ l, w S 6 l) + (∑ l, w S 7 l)

/-- The weights summed against the scores. -/
def numScore : EReal := zero32 + (∑ l, w S 0 l * S 0 l) + (∑ l, w S 1 l * S 1 l) + (∑ l, w S 2 l * S 2 l) + (∑ l, w S 3 l * S 3 l) + (∑ l, w S 4 l * S 4 l) + (∑ l, w S 5 l * S 5 l) + (∑ l, w S 6 l * S 6 l) + (∑ l, w S 7 l * S 7 l)

/-- The weights summed against a coordinate `C t l` of the candidates. -/
def numCand (C : Fin 8 → Fin 1024 → EReal) : EReal := zero32 + (∑ l, w S 0 l * C 0 l) + (∑ l, w S 1 l * C 1 l) + (∑ l, w S 2 l * C 2 l) + (∑ l, w S 3 l * C 3 l) + (∑ l, w S 4 l * C 4 l) + (∑ l, w S 5 l * C 5 l) + (∑ l, w S 6 l * C 6 l) + (∑ l, w S 7 l * C 7 l)

/-- The two results of the row. -/
def value : EReal := numScore S * Ideal.div one32 (den S)
def choice (C : Fin 8 → Fin 1024 → EReal) : EReal := numCand S C * Ideal.div one32 (den S)

/-- The pattern of all zero bits denotes the real number zero. -/
private theorem zero32_eq : zero32 = 0 := Ideal.ofBits_zero_f32

/-- The tiles' maxima combined from the left are the row's maximum; likewise the minima. -/
private theorem rmax_eq (s : Fin 8192 → EReal) : rmax (fun t l => s (cand t l)) = rowMax s :=
  (max_eight negInf32 s).symm

private theorem rmin_eq (s : Fin 8192 → EReal) : rmin (fun t l => s (cand t l)) = rowMin s :=
  (min_eight posInf32 s).symm

/-- Hence the temperature of the tiled row is the row's … -/
private theorem rtemp_eq (s : Fin 8192 → EReal) : rtemp (fun t l => s (cand t l)) = temp s := by
  unfold rtemp temp
  rw [rmax_eq, rmin_eq]

/-- … and the weight of candidate `l` of tile `t` is the row's weight of that candidate. -/
private theorem w_eq (s : Fin 8192 → EReal) (t : Fin 8) (l : Fin 1024) :
    w (fun t l => s (cand t l)) t l = wgt s (cand t l) := by
  unfold w wgt
  rw [rtemp_eq, rmax_eq]

/-- The three sums accumulated tile after tile from zero are the sums over the whole row. -/
private theorem den_eq (s : Fin 8192 → EReal) : den (fun t l => s (cand t l)) = ∑ k, wgt s k := by
  unfold den
  simp only [w_eq]
  rw [zero32_eq]
  exact (sum_eight fun k => wgt s k).symm

private theorem numScore_eq (s : Fin 8192 → EReal) :
    numScore (fun t l => s (cand t l)) = ∑ k, wgt s k * s k := by
  unfold numScore
  simp only [w_eq]
  rw [zero32_eq]
  exact (sum_eight fun k => wgt s k * s k).symm

private theorem numCand_eq (s c : Fin 8192 → EReal) :
    numCand (fun t l => s (cand t l)) (fun t l => c (cand t l)) = ∑ k, wgt s k * c k := by
  unfold numCand
  simp only [w_eq]
  rw [zero32_eq]
  exact (sum_eight fun k => wgt s k * c k).symm

/-- Walking the row tile by tile gives the first arrangement of the whole row. -/
theorem value_eq (s : Fin 8192 → EReal) : value (fun t l => s (cand t l)) = meanScore s := by
  unfold value meanScore recipSum
  rw [numScore_eq, den_eq]

theorem choice_eq (s c : Fin 8192 → EReal) :
    choice (fun t l => s (cand t l)) (fun t l => c (cand t l)) = meanCand s c := by
  unfold choice meanCand recipSum
  rw [numCand_eq, den_eq]

end Cert.TileSoft

end
-- ==== Proof.KernOps.lean ====
/-
  The kernel body's repeated vector steps read at an index, on the extended reals: a tile of scores (a product
  contracted over the 256 coordinates, plus the intercepts broadcast down the rows), a tile's row maximum, minimum
  and sum as a column, a column broadcast across a tile or a block, and a tile of weights contracted against a tile
  of candidates.
-/
import proofs.«115138_g88089779241353_cont_9to1c4b_404_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernOps

open Idealize.ShloMosaic Idealize.ShloMosaic.ValueIdx Cert.KernelIdeal Cert.KernelIdeal.Gen

/-! ## The two contractions' operand indices, axis by axis -/

private theorem lhs_score_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
private theorem lhs_score_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
private theorem rhs_score_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
private theorem rhs_score_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

private theorem lhs_wgt_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
private theorem lhs_wgt_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
private theorem rhs_wgt_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
private theorem rhs_wgt_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-! ## A column of 256 entries, and a row of a tile as the reduced index with a coordinate inserted -/

/-- A vector of 256 entries viewed as a column reads its entry `r` at `(r, 0)`. -/
private theorem col_apply {α : Type} (v : S256.Idx → α) (h' : S256.ShapeCasts S256x1) (r : Fin 256) :
    shapeCast S256x1 v h' (ix2 r (0 : Fin 1)) = v (ix1 r) :=
  shapeCast_apply v h' (ix2 r (0 : Fin 1)) (ix1 r) (by
    rw [Shape.rowMajor_val_one, Shape.rowMajor_val_two]; show r.val = r.val * 1 + 0; omega)

/-- Row `r` of a tile with the second coordinate `l` inserted is the entry `(r, l)`. -/
private theorem lift_row (h : S256x1024.Reduces [1] S256) (r : Fin 256) (l : Fin 1024) :
    h.lift (ix1 r) l = ix2 r l :=
  funext fun a => Fin.ext (by
    match a with
    | ⟨0, _⟩ => rfl
    | ⟨1, _⟩ => rfl)

/-- A minimum over one axis is the fold of `min` over that axis's coordinates, from the accumulator's value. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A tile of scores at row `r`, candidate `l`: the row of `v0` against row `l` of the tile, plus the intercept. -/
theorem scoreTile_apply (v0 : FVec Ideal S256x256 .f32) (yt : FVec Ideal S1024x256 .f32) (bt : FVec Ideal S1x1024 .f32)
    (h1 : S1024x256.ShapeCasts S1024x256) (h2 : S1x1024.Broadcasts S256x1024) (r : Fin 256) (l : Fin 1024) :
    addf (matmul dot_S256x256_S1024x256_S256x1024_1_1_0_0_n_n none v0 (shapeCast S1024x256 yt h1)
        (constant (F := Ideal) S256x1024 .f32 0x00000000#32)) (broadcastTo S256x1024 bt h2) (ix2 r l)
      = (∑ j : Fin 256, v0 (ix2 r j) * yt (ix2 l j)) + bt (ix2 (0 : Fin 1) l) := by
  have hsum : matmul dot_S256x256_S1024x256_S256x1024_1_1_0_0_n_n none v0 (shapeCast S1024x256 yt h1)
      (constant (F := Ideal) S256x1024 .f32 0x00000000#32) (ix2 r l) = ∑ j : Fin 256, v0 (ix2 r j) * yt (ix2 l j) := by
    rw [shapeCast_self]
    refine (Ideal.matmul_constant_zero_apply dot_S256x256_S1024x256_S256x1024_1_1_0_0_n_n none v0 yt (ix2 r l)).trans ?_
    rw [← Equiv.sum_comp (contrEquiv1 dot_S256x256_S1024x256_S256x1024_1_1_0_0_n_n 256 rfl rfl).symm]
    refine Finset.sum_congr rfl fun k _ => ?_
    have hk := contrEquiv1_symm_val dot_S256x256_S1024x256_S256x1024_1_1_0_0_n_n 256 rfl rfl k
    have el : dot_S256x256_S1024x256_S256x1024_1_1_0_0_n_n.lhsIdx (ix2 r l) ((contrEquiv1 dot_S256x256_S1024x256_S256x1024_1_1_0_0_n_n 256 rfl rfl).symm k) = ix2 r k :=
      funext fun a => Fin.ext (by
        match a with
        | ⟨0, _⟩ => exact lhs_score_0 _ _
        | ⟨1, _⟩ => exact (lhs_score_1 _ _).trans hk)
    have er : dot_S256x256_S1024x256_S256x1024_1_1_0_0_n_n.rhsIdx (ix2 r l) ((contrEquiv1 dot_S256x256_S1024x256_S256x1024_1_1_0_0_n_n 256 rfl rfl).symm k) = ix2 l k :=
      funext fun a => Fin.ext (by
        match a with
        | ⟨0, _⟩ => exact rhs_score_0 _ _
        | ⟨1, _⟩ => exact (rhs_score_1 _ _).trans hk)
    rw [el, er]
  rw [addf_apply, hsum, broadcastTo_1b_ab_apply]

/-- A tile's row maximum, kept as a column. -/
theorem tileMax_apply (s : FVec Ideal S256x1024 .f32) (h : S256x1024.Reduces [1] S256) (hφ : FKind.Formats .f32)
    (hacc : (0xFF800000#32 : BitVec 32) = FKind.maximumf.neutral .f32 hφ) (h' : S256.ShapeCasts S256x1) (r : Fin 256) :
    shapeCast S256x1 (multiReduction .maximumf [1] S256 s 0xFF800000#32 h hφ hacc) h' (ix2 r (0 : Fin 1))
      = Finset.univ.fold max (Ideal.ofBits .f32 0xFF800000#32) fun l : Fin 1024 => s (ix2 r l) := by
  rw [col_apply, Ideal.multiReduction_maximumf_single]
  show (Finset.univ : Finset (Fin 1024)).fold max (Ideal.ofBits .f32 0xFF800000#32) (s ∘ h.lift (ix1 r)) = _
  exact congrArg (Finset.fold max _ · Finset.univ) (funext fun l => congrArg s (lift_row h r l))

/-- A tile's row minimum, kept as a column. -/
theorem tileMin_apply (s : FVec Ideal S256x1024 .f32) (h : S256x1024.Reduces [1] S256) (hφ : FKind.Formats .f32)
    (hacc : (0x7F800000#32 : BitVec 32) = FKind.minimumf.neutral .f32 hφ) (h' : S256.ShapeCasts S256x1) (r : Fin 256) :
    shapeCast S256x1 (multiReduction .minimumf [1] S256 s 0x7F800000#32 h hφ hacc) h' (ix2 r (0 : Fin 1))
      = Finset.univ.fold min (Ideal.ofBits .f32 0x7F800000#32) fun l : Fin 1024 => s (ix2 r l) := by
  rw [col_apply, multiReduction_minimumf_single]
  show (Finset.univ : Finset (Fin 1024)).fold min (Ideal.ofBits .f32 0x7F800000#32) (s ∘ h.lift (ix1 r)) = _
  exact congrArg (Finset.fold min _ · Finset.univ) (funext fun l => congrArg s (lift_row h r l))

/-- A tile's row sum, kept as a column. -/
theorem tileSum_apply (e : FVec Ideal S256x1024 .f32) (h : S256x1024.Reduces [1] S256) (hφ : FKind.Formats .f32)
    (hacc : (0x00000000#32 : BitVec 32) = FKind.add.neutral .f32 hφ) (h' : S256.ShapeCasts S256x1) (r : Fin 256) :
    shapeCast S256x1 (multiReduction .add [1] S256 e 0x00000000#32 h hφ hacc) h' (ix2 r (0 : Fin 1))
      = ∑ l : Fin 1024, e (ix2 r l) := by
  rw [col_apply, Ideal.multiReduction_add_single]
  exact Finset.sum_congr rfl fun l _ => congrArg e (lift_row h r l)

/-- A column broadcast across a tile reads the column at the row. -/
theorem colToTile_apply (v : FVec Ideal S256x1 .f32) (h : S256x1.Broadcasts S256x1024) (r : Fin 256) (l : Fin 1024) :
    broadcastTo S256x1024 v h (ix2 r l) = v (ix2 r (0 : Fin 1)) := by
  refine broadcastTo_apply v h (ix2 r l) (ix2 r (0 : Fin 1)) fun ax => ?_
  match ax with
  | ⟨0, _⟩ => show r.val = if (256 : ℕ) = 1 then 0 else r.val; rw [if_neg (by decide)]
  | ⟨1, _⟩ => show 0 = if (1 : ℕ) = 1 then 0 else l.val; rw [if_pos rfl]

/-- A column broadcast across a block reads the column at the row. -/
theorem colToBlock_apply (v : FVec Ideal S256x1 .f32) (h : S256x1.Broadcasts S256x256) (r j : Fin 256) :
    broadcastTo S256x256 v h (ix2 r j) = v (ix2 r (0 : Fin 1)) := by
  refine broadcastTo_apply v h (ix2 r j) (ix2 r (0 : Fin 1)) fun ax => ?_
  match ax with
  | ⟨0, _⟩ => show r.val = if (256 : ℕ) = 1 then 0 else r.val; rw [if_neg (by decide)]
  | ⟨1, _⟩ => show 0 = if (1 : ℕ) = 1 then 0 else j.val; rw [if_pos rfl]

/-- A tile of weights against a tile of candidates at row `r`, coordinate `j`. -/
theorem wgtTile_apply (e : FVec Ideal S256x1024 .bf16) (yh : FVec Ideal S1024x256 .bf16)
    (h1 : S1024x256.ShapeCasts S1024x256) (r j : Fin 256) :
    matmul dot_S256x1024_S1024x256_S256x256_1_0_0_1_n_n none e (shapeCast S1024x256 yh h1)
        (constant (F := Ideal) S256x256 .f32 0x00000000#32) (ix2 r j)
      = ∑ l : Fin 1024, e (ix2 r l) * yh (ix2 l j) := by
  rw [shapeCast_self]
  refine (Ideal.matmul_constant_zero_apply dot_S256x1024_S1024x256_S256x256_1_0_0_1_n_n none e yh (ix2 r j)).trans ?_
  rw [← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 r j) ((contrEquiv1 dot_S256x1024_S1024x256_S256x256_1_0_0_1_n_n 1024 rfl rfl).symm k) = ix2 r k :=
    funext fun a => Fin.ext (by
      match a with
      | ⟨0, _⟩ => exact lhs_wgt_0 _ _
      | ⟨1, _⟩ => exact (lhs_wgt_1 _ _).trans hk)
  have er : dot_S256x1024_S1024x256_S256x256_1_0_0_1_n_n.rhsIdx (ix2 r j) ((contrEquiv1 dot_S256x1024_S1024x256_S256x256_1_0_0_1_n_n 1024 rfl rfl).symm k) = ix2 k j :=
    funext fun a => Fin.ext (by
      match a with
      | ⟨0, _⟩ => exact (rhs_wgt_0 _ _).trans hk
      | ⟨1, _⟩ => exact rhs_wgt_1 _ _)
  rw [el, er]

end Cert.KernOps

end
-- ==== Proof.KernPay.lean ====
/-
  Every value the kernel body computes, read at a row `r` of its block (and a candidate `l` of a tile, or a coordinate
  `j`), over arbitrary operands: a tile of scores is the row of `x` against the tile's candidates plus their
  intercepts; the running maximum and minimum take in a tile's extremum at a time; the temperature is `50` over the
  floored spread, clipped; a tile of weights is `exp (score · T − M · T)`; the three accumulators take in a tile's
  sum at a time; the results are the accumulators times the reciprocal of the weights' sum. The eight unrolled tiles
  print the same functions under different names; those are identified first.
-/
import proofs.«115138_g88089779241353_cont_9to1c4b_404_6_alg».proof.Proof.KernOps

noncomputable section

namespace Cert.KernPay

open Idealize.ShloMosaic Idealize.ShloMosaic.ValueIdx Cert.KernelIdeal Cert.KernelIdeal.Gen Cert.KernOps

/-- A tile's maximum, minimum and sum along row `r`. -/
def tmax (s : FVec Ideal S256x1024 .f32) (r : Fin 256) : EReal :=
  Finset.univ.fold max (Ideal.ofBits .f32 0xFF800000#32) fun l : Fin 1024 => s (ix2 r l)
def tmin (s : FVec Ideal S256x1024 .f32) (r : Fin 256) : EReal :=
  Finset.univ.fold min (Ideal.ofBits .f32 0x7F800000#32) fun l : Fin 1024 => s (ix2 r l)

/-! ## The unrolled tiles' functions are one function -/

theorem pay6_eq (v0 : FVec Ideal S256x256 .f32) (y : FVec Ideal S1024x256 .f32) (b : FVec Ideal S1x1024 .f32) : k0_pay6 (F := Ideal) v0 y b = k0_pay4 v0 y b := rfl
theorem pay13_eq (v0 : FVec Ideal S256x256 .f32) (y : FVec Ideal S1024x256 .f32) (b : FVec Ideal S1x1024 .f32) : k0_pay13 (F := Ideal) v0 y b = k0_pay4 v0 y b := rfl
theorem pay17_eq (v0 : FVec Ideal S256x256 .f32) (y : FVec Ideal S1024x256 .f32) (b : FVec Ideal S1x1024 .f32) : k0_pay17 (F := Ideal) v0 y b = k0_pay4 v0 y b := rfl
theorem pay19_eq (v0 : FVec Ideal S256x256 .f32) (y : FVec Ideal S1024x256 .f32) (b : FVec Ideal S1x1024 .f32) : k0_pay19 (F := Ideal) v0 y b = k0_pay4 v0 y b := rfl
theorem pay21_eq (v0 : FVec Ideal S256x256 .f32) (y : FVec Ideal S1024x256 .f32) (b : FVec Ideal S1x1024 .f32) : k0_pay21 (F := Ideal) v0 y b = k0_pay4 v0 y b := rfl
theorem pay25_eq (v0 : FVec Ideal S256x256 .f32) (y : FVec Ideal S1024x256 .f32) (b : FVec Ideal S1x1024 .f32) : k0_pay25 (F := Ideal) v0 y b = k0_pay4 v0 y b := rfl
theorem pay11_eq (v0 : FVec Ideal S256x256 .f32) (y : FVec Ideal S1024x256 .f32) (b : FVec Ideal S1x1024 .f32) : k0_pay11 (F := Ideal) (k0_pay10 v0 y) b = k0_pay4 v0 y b := rfl

theorem pay36_eq (T C : FVec Ideal S256x1 .f32) (s : FVec Ideal S256x1024 .f32) : k0_pay36 (F := Ideal) T C s = k0_pay35 T C s := rfl
theorem pay40_eq (T C : FVec Ideal S256x1 .f32) (s : FVec Ideal S256x1024 .f32) : k0_pay40 (F := Ideal) T C s = k0_pay35 T C s := rfl
theorem pay41_eq (T C : FVec Ideal S256x1 .f32) (s : FVec Ideal S256x1024 .f32) : k0_pay41 (F := Ideal) T C s = k0_pay35 T C s := rfl
theorem pay44_eq (T C : FVec Ideal S256x1 .f32) (s : FVec Ideal S256x1024 .f32) : k0_pay44 (F := Ideal) T C s = k0_pay35 T C s := rfl
theorem pay47_eq (T C : FVec Ideal S256x1 .f32) (s : FVec Ideal S256x1024 .f32) : k0_pay47 (F := Ideal) T C s = k0_pay35 T C s := rfl
theorem pay49_eq (T C : FVec Ideal S256x1 .f32) (s : FVec Ideal S256x1024 .f32) : k0_pay49 (F := Ideal) T C s = k0_pay35 T C s := rfl

/-- What is stored to the scratch is the tile of scores itself (a cast to the same shape). -/
theorem pay5_eq (v0 : FVec Ideal S256x256 .f32) (y : FVec Ideal S1024x256 .f32) (b : FVec Ideal S1x1024 .f32) : k0_pay5 (F := Ideal) v0 y b = k0_pay4 v0 y b := by
  unfold k0_pay5; exact shapeCast_self _ _
theorem pay7_eq (v0 : FVec Ideal S256x256 .f32) (y : FVec Ideal S1024x256 .f32) (b : FVec Ideal S1x1024 .f32) : k0_pay7 (F := Ideal) v0 y b = k0_pay4 v0 y b := by
  unfold k0_pay7; exact shapeCast_self _ _
theorem pay12_eq (v0 : FVec Ideal S256x256 .f32) (y : FVec Ideal S1024x256 .f32) (b : FVec Ideal S1x1024 .f32) : k0_pay12 (F := Ideal) (k0_pay10 v0 y) b = k0_pay4 v0 y b := by
  unfold k0_pay12; exact shapeCast_self _ _
theorem pay14_eq (v0 : FVec Ideal S256x256 .f32) (y : FVec Ideal S1024x256 .f32) (b : FVec Ideal S1x1024 .f32) : k0_pay14 (F := Ideal) v0 y b = k0_pay4 v0 y b := by
  unfold k0_pay14; exact shapeCast_self _ _
theorem pay18_eq (v0 : FVec Ideal S256x256 .f32) (y : FVec Ideal S1024x256 .f32) (b : FVec Ideal S1x1024 .f32) : k0_pay18 (F := Ideal) v0 y b = k0_pay4 v0 y b := by
  unfold k0_pay18; exact shapeCast_self _ _
theorem pay20_eq (v0 : FVec Ideal S256x256 .f32) (y : FVec Ideal S1024x256 .f32) (b : FVec Ideal S1x1024 .f32) : k0_pay20 (F := Ideal) v0 y b = k0_pay4 v0 y b := by
  unfold k0_pay20; exact shapeCast_self _ _
theorem pay22_eq (v0 : FVec Ideal S256x256 .f32) (y : FVec Ideal S1024x256 .f32) (b : FVec Ideal S1x1024 .f32) : k0_pay22 (F := Ideal) v0 y b = k0_pay4 v0 y b := by
  unfold k0_pay22; exact shapeCast_self _ _
theorem pay26_eq (v0 : FVec Ideal S256x256 .f32) (y : FVec Ideal S1024x256 .f32) (b : FVec Ideal S1x1024 .f32) : k0_pay26 (F := Ideal) v0 y b = k0_pay4 v0 y b := by
  unfold k0_pay26; exact shapeCast_self _ _

/-- The bf16 copies are the values themselves on the extended reals. -/
theorem pay34_eq (v0 : FVec Ideal S256x256 .f32) (a b : FVec Ideal S256x1 .f32) (y : FVec Ideal S1024x256 .f32) (bt : FVec Ideal S1x1024 .f32) (s : FVec Ideal S256x1024 .f32) :
    k0_pay34 (F := Ideal) v0 a b y bt s = k0_pay31 v0 a b y bt s := rfl
theorem pay52_eq (T C : FVec Ideal S256x1 .f32) (s : FVec Ideal S256x1024 .f32) : k0_pay52 (F := Ideal) T C s = k0_pay35 T C s := rfl
theorem pay53_eq (y : FVec Ideal S1024x256 .bf16) : k0_pay53 (F := Ideal) y = y := by
  unfold k0_pay53; exact shapeCast_self _ _

/-! ## The scores and the extrema -/

theorem pay4_apply (v0 : FVec Ideal S256x256 .f32) (y : FVec Ideal S1024x256 .f32) (b : FVec Ideal S1x1024 .f32) (r : Fin 256) (l : Fin 1024) :
    k0_pay4 (F := Ideal) v0 y b (ix2 r l) = (∑ j : Fin 256, v0 (ix2 r j) * y (ix2 l j)) + b (ix2 (0 : Fin 1) l) := by
  unfold k0_pay4; exact scoreTile_apply v0 y b _ _ r l

theorem pay8_apply (v0 : FVec Ideal S256x256 .f32) (y0 : FVec Ideal S1024x256 .f32) (b0 : FVec Ideal S1x1024 .f32) (y1 : FVec Ideal S1024x256 .f32) (b1 : FVec Ideal S1x1024 .f32) (r : Fin 256) :
    k0_pay8 (F := Ideal) v0 y0 b0 y1 b1 (ix2 r (0 : Fin 1)) = max (tmax (k0_pay4 v0 y0 b0) r) (tmax (k0_pay4 v0 y1 b1) r) := by
  unfold k0_pay8
  exact congrArg₂ max (tileMax_apply (k0_pay4 v0 y0 b0) _ _ _ _ r) (tileMax_apply (k0_pay4 v0 y1 b1) _ _ _ _ r)
theorem pay9_apply (v0 : FVec Ideal S256x256 .f32) (y0 : FVec Ideal S1024x256 .f32) (b0 : FVec Ideal S1x1024 .f32) (y1 : FVec Ideal S1024x256 .f32) (b1 : FVec Ideal S1x1024 .f32) (r : Fin 256) :
    k0_pay9 (F := Ideal) v0 y0 b0 y1 b1 (ix2 r (0 : Fin 1)) = min (tmin (k0_pay4 v0 y0 b0) r) (tmin (k0_pay4 v0 y1 b1) r) := by
  unfold k0_pay9
  exact congrArg₂ min (tileMin_apply (k0_pay4 v0 y0 b0) _ _ _ _ r) (tileMin_apply (k0_pay4 v0 y1 b1) _ _ _ _ r)
theorem pay15_apply (v0 : FVec Ideal S256x256 .f32) (m : FVec Ideal S256x1 .f32) (y2 : FVec Ideal S1024x256 .f32) (b2 : FVec Ideal S1x1024 .f32) (y3 : FVec Ideal S1024x256 .f32) (b3 : FVec Ideal S1x1024 .f32) (r : Fin 256) :
    k0_pay15 (F := Ideal) v0 m (k0_pay10 v0 y2) b2 y3 b3 (ix2 r (0 : Fin 1))
      = max (max (m (ix2 r (0 : Fin 1))) (tmax (k0_pay4 v0 y2 b2) r)) (tmax (k0_pay4 v0 y3 b3) r) := by
  unfold k0_pay15
  exact congrArg₂ max (congrArg (max (m (ix2 r (0 : Fin 1)))) (tileMax_apply (k0_pay4 v0 y2 b2) _ _ _ _ r)) (tileMax_apply (k0_pay4 v0 y3 b3) _ _ _ _ r)
theorem pay16_apply (v0 : FVec Ideal S256x256 .f32) (m : FVec Ideal S256x1 .f32) (y2 : FVec Ideal S1024x256 .f32) (b2 : FVec Ideal S1x1024 .f32) (y3 : FVec Ideal S1024x256 .f32) (b3 : FVec Ideal S1x1024 .f32) (r : Fin 256) :
    k0_pay16 (F := Ideal) v0 m (k0_pay10 v0 y2) b2 y3 b3 (ix2 r (0 : Fin 1))
      = min (min (m (ix2 r (0 : Fin 1))) (tmin (k0_pay4 v0 y2 b2) r)) (tmin (k0_pay4 v0 y3 b3) r) := by
  unfold k0_pay16
  exact congrArg₂ min (congrArg (min (m (ix2 r (0 : Fin 1)))) (tileMin_apply (k0_pay4 v0 y2 b2) _ _ _ _ r)) (tileMin_apply (k0_pay4 v0 y3 b3) _ _ _ _ r)
theorem pay23_apply (v0 : FVec Ideal S256x256 .f32) (m : FVec Ideal S256x1 .f32) (s4 : FVec Ideal S256x1024 .f32) (y5 : FVec Ideal S1024x256 .f32) (b5 : FVec Ideal S1x1024 .f32) (y6 : FVec Ideal S1024x256 .f32) (b6 : FVec Ideal S1x1024 .f32) (r : Fin 256) :
    k0_pay23 (F := Ideal) v0 m s4 y5 b5 y6 b6 (ix2 r (0 : Fin 1))
      = max (max (max (m (ix2 r (0 : Fin 1))) (tmax s4 r)) (tmax (k0_pay4 v0 y5 b5) r)) (tmax (k0_pay4 v0 y6 b6) r) := by
  unfold k0_pay23
  exact congrArg₂ max (congrArg₂ max (congrArg (max (m (ix2 r (0 : Fin 1)))) (tileMax_apply s4 _ _ _ _ r)) (tileMax_apply (k0_pay4 v0 y5 b5) _ _ _ _ r))
    (tileMax_apply (k0_pay4 v0 y6 b6) _ _ _ _ r)
theorem pay24_apply (v0 : FVec Ideal S256x256 .f32) (m : FVec Ideal S256x1 .f32) (s4 : FVec Ideal S256x1024 .f32) (y5 : FVec Ideal S1024x256 .f32) (b5 : FVec Ideal S1x1024 .f32) (y6 : FVec Ideal S1024x256 .f32) (b6 : FVec Ideal S1x1024 .f32) (r : Fin 256) :
    k0_pay24 (F := Ideal) v0 m s4 y5 b5 y6 b6 (ix2 r (0 : Fin 1))
      = min (min (min (m (ix2 r (0 : Fin 1))) (tmin s4 r)) (tmin (k0_pay4 v0 y5 b5) r)) (tmin (k0_pay4 v0 y6 b6) r) := by
  unfold k0_pay24
  exact congrArg₂ min (congrArg₂ min (congrArg (min (m (ix2 r (0 : Fin 1)))) (tileMin_apply s4 _ _ _ _ r)) (tileMin_apply (k0_pay4 v0 y5 b5) _ _ _ _ r))
    (tileMin_apply (k0_pay4 v0 y6 b6) _ _ _ _ r)
theorem pay27_apply (v0 : FVec Ideal S256x256 .f32) (m : FVec Ideal S256x1 .f32) (y7 : FVec Ideal S1024x256 .f32) (b7 : FVec Ideal S1x1024 .f32) (r : Fin 256) :
    k0_pay27 (F := Ideal) v0 m y7 b7 (ix2 r (0 : Fin 1)) = max (m (ix2 r (0 : Fin 1))) (tmax (k0_pay4 v0 y7 b7) r) := by
  unfold k0_pay27
  exact congrArg (max (m (ix2 r (0 : Fin 1)))) (tileMax_apply (k0_pay4 v0 y7 b7) _ _ _ _ r)
/-! ## The temperature and the weights -/

theorem pay28_apply (v0 : FVec Ideal S256x256 .f32) (m n : FVec Ideal S256x1 .f32) (y7 : FVec Ideal S1024x256 .f32) (b7 : FVec Ideal S1x1024 .f32) (r : Fin 256) :
    k0_pay28 (F := Ideal) v0 m n y7 b7 (ix2 r (0 : Fin 1))
      = min (Ideal.ofBits .f32 0x459C4000#32) (max (Ideal.ofBits .f32 0x42480000#32)
          (Ideal.div (Ideal.ofBits .f32 0x42480000#32)
            (max (k0_pay27 v0 m y7 b7 (ix2 r (0 : Fin 1)) - min (n (ix2 r (0 : Fin 1))) (tmin (k0_pay4 v0 y7 b7) r))
              (Ideal.ofBits .f32 0x3A83126F#32)))) := by
  unfold k0_pay28
  exact congrArg (fun z => min (Ideal.ofBits .f32 0x459C4000#32) (max (Ideal.ofBits .f32 0x42480000#32)
      (Ideal.div (Ideal.ofBits .f32 0x42480000#32)
        (max (k0_pay27 v0 m y7 b7 (ix2 r (0 : Fin 1)) - min (n (ix2 r (0 : Fin 1))) z) (Ideal.ofBits .f32 0x3A83126F#32)))))
    (tileMin_apply (k0_pay4 v0 y7 b7) _ _ _ _ r)
theorem pay29_apply (v0 : FVec Ideal S256x256 .f32) (m n : FVec Ideal S256x1 .f32) (y7 : FVec Ideal S1024x256 .f32) (b7 : FVec Ideal S1x1024 .f32) (r : Fin 256) :
    k0_pay29 (F := Ideal) v0 m n y7 b7 (ix2 r (0 : Fin 1))
      = k0_pay27 v0 m y7 b7 (ix2 r (0 : Fin 1)) * k0_pay28 v0 m n y7 b7 (ix2 r (0 : Fin 1)) := rfl

theorem pay35_apply (T C : FVec Ideal S256x1 .f32) (s : FVec Ideal S256x1024 .f32) (r : Fin 256) (l : Fin 1024) :
    k0_pay35 (F := Ideal) T C s (ix2 r l) = Ideal.exp (s (ix2 r l) * T (ix2 r (0 : Fin 1)) - C (ix2 r (0 : Fin 1))) := by
  unfold k0_pay35
  show Ideal.exp (s (ix2 r l) * broadcastTo S256x1024 T _ (ix2 r l) - broadcastTo S256x1024 C _ (ix2 r l)) = _
  rw [colToTile_apply, colToTile_apply]

theorem pay31_apply (v0 : FVec Ideal S256x256 .f32) (m n : FVec Ideal S256x1 .f32) (y7 : FVec Ideal S1024x256 .f32) (b7 : FVec Ideal S1x1024 .f32) (s : FVec Ideal S256x1024 .f32) :
    k0_pay31 (F := Ideal) v0 m n y7 b7 s = k0_pay35 (k0_pay28 v0 m n y7 b7) (k0_pay29 v0 m n y7 b7) s := rfl

/-! ## The accumulators, a tile or two or three at a time -/

theorem pay32_apply (v0 : FVec Ideal S256x256 .f32) (m n : FVec Ideal S256x1 .f32) (y7 : FVec Ideal S1024x256 .f32) (b7 : FVec Ideal S1x1024 .f32) (s : FVec Ideal S256x1024 .f32) (r : Fin 256) :
    k0_pay32 (F := Ideal) v0 m n y7 b7 s (ix2 r (0 : Fin 1))
      = Ideal.ofBits .f32 0x00000000#32 + ∑ l : Fin 1024, k0_pay31 v0 m n y7 b7 s (ix2 r l) := by
  unfold k0_pay32
  exact congrArg (fun z => Ideal.ofBits .f32 0x00000000#32 + z) (tileSum_apply (k0_pay31 v0 m n y7 b7 s) _ _ _ _ r)
theorem pay33_apply (v0 : FVec Ideal S256x256 .f32) (m n : FVec Ideal S256x1 .f32) (y7 : FVec Ideal S1024x256 .f32) (b7 : FVec Ideal S1x1024 .f32) (s : FVec Ideal S256x1024 .f32) (r : Fin 256) :
    k0_pay33 (F := Ideal) v0 m n y7 b7 s (ix2 r (0 : Fin 1))
      = Ideal.ofBits .f32 0x00000000#32 + ∑ l : Fin 1024, k0_pay31 v0 m n y7 b7 s (ix2 r l) * s (ix2 r l) := by
  unfold k0_pay33
  exact congrArg (fun z => Ideal.ofBits .f32 0x00000000#32 + z) (tileSum_apply (mulf (k0_pay31 v0 m n y7 b7 s) s) _ _ _ _ r)
theorem pay37_apply (T C d : FVec Ideal S256x1 .f32) (s1 s2 : FVec Ideal S256x1024 .f32) (r : Fin 256) :
    k0_pay37 (F := Ideal) T C d s1 s2 (ix2 r (0 : Fin 1))
      = d (ix2 r (0 : Fin 1)) + (∑ l : Fin 1024, k0_pay35 T C s1 (ix2 r l)) + ∑ l : Fin 1024, k0_pay35 T C s2 (ix2 r l) := by
  unfold k0_pay37
  exact congrArg₂ (fun a b : EReal => a + b) (congrArg (fun z => d (ix2 r (0 : Fin 1)) + z) (tileSum_apply (k0_pay35 T C s1) _ _ _ _ r)) (tileSum_apply (k0_pay35 T C s2) _ _ _ _ r)
theorem pay38_apply (T C d : FVec Ideal S256x1 .f32) (s1 s2 : FVec Ideal S256x1024 .f32) (r : Fin 256) :
    k0_pay38 (F := Ideal) T C d s1 s2 (ix2 r (0 : Fin 1))
      = d (ix2 r (0 : Fin 1)) + (∑ l : Fin 1024, k0_pay35 T C s1 (ix2 r l) * s1 (ix2 r l))
          + ∑ l : Fin 1024, k0_pay35 T C s2 (ix2 r l) * s2 (ix2 r l) := by
  unfold k0_pay38
  exact congrArg₂ (fun a b : EReal => a + b) (congrArg (fun z => d (ix2 r (0 : Fin 1)) + z) (tileSum_apply (mulf (k0_pay35 T C s1) s1) _ _ _ _ r)) (tileSum_apply (mulf (k0_pay35 T C s2) s2) _ _ _ _ r)
theorem pay39_apply (T C : FVec Ideal S256x1 .f32) (a : FVec Ideal S256x256 .f32) (e0 : FVec Ideal S256x1024 .bf16) (h0 : FVec Ideal S1024x256 .bf16) (s1 : FVec Ideal S256x1024 .f32) (h1 : FVec Ideal S1024x256 .bf16) (s2 : FVec Ideal S256x1024 .f32) (h2 : FVec Ideal S1024x256 .bf16)
    (r j : Fin 256) :
    k0_pay39 (F := Ideal) T C a e0 h0 s1 h1 s2 h2 (ix2 r j)
      = a (ix2 r j) + (∑ l : Fin 1024, e0 (ix2 r l) * h0 (ix2 l j)) + (∑ l : Fin 1024, k0_pay35 T C s1 (ix2 r l) * h1 (ix2 l j))
          + ∑ l : Fin 1024, k0_pay35 T C s2 (ix2 r l) * h2 (ix2 l j) := by
  unfold k0_pay39; simp only [addf_apply, wgtTile_apply, truncf_apply, pay36_eq]

theorem pay42_apply (T C d : FVec Ideal S256x1 .f32) (s3 s4 : FVec Ideal S256x1024 .f32) (r : Fin 256) :
    k0_pay42 (F := Ideal) T C d s3 s4 (ix2 r (0 : Fin 1))
      = d (ix2 r (0 : Fin 1)) + (∑ l : Fin 1024, k0_pay35 T C s3 (ix2 r l) * s3 (ix2 r l))
          + ∑ l : Fin 1024, k0_pay35 T C s4 (ix2 r l) * s4 (ix2 r l) := by
  unfold k0_pay42
  exact congrArg₂ (fun a b : EReal => a + b) (congrArg (fun z => d (ix2 r (0 : Fin 1)) + z) (tileSum_apply (mulf (k0_pay35 T C s3) s3) _ _ _ _ r)) (tileSum_apply (mulf (k0_pay35 T C s4) s4) _ _ _ _ r)
theorem pay43_apply (T C : FVec Ideal S256x1 .f32) (a : FVec Ideal S256x256 .f32) (s3 : FVec Ideal S256x1024 .f32) (h3 : FVec Ideal S1024x256 .bf16) (s4 : FVec Ideal S256x1024 .f32) (h4 : FVec Ideal S1024x256 .bf16) (r j : Fin 256) :
    k0_pay43 (F := Ideal) T C a s3 h3 s4 h4 (ix2 r j)
      = a (ix2 r j) + (∑ l : Fin 1024, k0_pay35 T C s3 (ix2 r l) * h3 (ix2 l j))
          + ∑ l : Fin 1024, k0_pay35 T C s4 (ix2 r l) * h4 (ix2 l j) := by
  unfold k0_pay43; simp only [addf_apply, wgtTile_apply, truncf_apply, pay40_eq, pay41_eq]
theorem pay45_apply (T C d : FVec Ideal S256x1 .f32) (s3 s4 s5 : FVec Ideal S256x1024 .f32) (r : Fin 256) :
    k0_pay45 (F := Ideal) T C d s3 s4 s5 (ix2 r (0 : Fin 1))
      = d (ix2 r (0 : Fin 1)) + (∑ l : Fin 1024, k0_pay35 T C s3 (ix2 r l)) + (∑ l : Fin 1024, k0_pay35 T C s4 (ix2 r l))
          + ∑ l : Fin 1024, k0_pay35 T C s5 (ix2 r l) := by
  unfold k0_pay45
  exact congrArg₂ (fun a b : EReal => a + b) (congrArg₂ (fun a b : EReal => a + b) (congrArg (fun z => d (ix2 r (0 : Fin 1)) + z) (tileSum_apply (k0_pay35 T C s3) _ _ _ _ r)) (tileSum_apply (k0_pay35 T C s4) _ _ _ _ r)) (tileSum_apply (k0_pay35 T C s5) _ _ _ _ r)
theorem pay46_apply (T C : FVec Ideal S256x1 .f32) (s5 : FVec Ideal S256x1024 .f32) (r : Fin 256) (l : Fin 1024) :
    k0_pay46 (F := Ideal) T C s5 (ix2 r l) = k0_pay35 T C s5 (ix2 r l) * s5 (ix2 r l) := rfl
theorem pay48_apply (T C : FVec Ideal S256x1 .f32) (a : FVec Ideal S256x256 .f32) (e5 : FVec Ideal S256x1024 .f32) (h5 : FVec Ideal S1024x256 .bf16) (s6 : FVec Ideal S256x1024 .f32) (h6 : FVec Ideal S1024x256 .bf16) (r j : Fin 256) :
    k0_pay48 (F := Ideal) T C a e5 h5 s6 h6 (ix2 r j)
      = a (ix2 r j) + (∑ l : Fin 1024, e5 (ix2 r l) * h5 (ix2 l j))
          + ∑ l : Fin 1024, k0_pay35 T C s6 (ix2 r l) * h6 (ix2 l j) := by
  unfold k0_pay48; simp only [addf_apply, wgtTile_apply, truncf_apply, pay47_eq]
theorem pay50_apply (T C d : FVec Ideal S256x1 .f32) (s6 s7 : FVec Ideal S256x1024 .f32) (r : Fin 256) :
    k0_pay50 (F := Ideal) T C d s6 s7 (ix2 r (0 : Fin 1))
      = d (ix2 r (0 : Fin 1)) + (∑ l : Fin 1024, k0_pay35 T C s6 (ix2 r l)) + ∑ l : Fin 1024, k0_pay35 T C s7 (ix2 r l) := by
  unfold k0_pay50
  exact congrArg₂ (fun a b : EReal => a + b) (congrArg (fun z => d (ix2 r (0 : Fin 1)) + z) (tileSum_apply (k0_pay35 T C s6) _ _ _ _ r)) (tileSum_apply (k0_pay35 T C s7) _ _ _ _ r)
theorem pay51_apply (T C d : FVec Ideal S256x1 .f32) (p5 : FVec Ideal S256x1024 .f32) (s6 s7 : FVec Ideal S256x1024 .f32) (r : Fin 256) :
    k0_pay51 (F := Ideal) T C d p5 s6 s7 (ix2 r (0 : Fin 1))
      = d (ix2 r (0 : Fin 1)) + (∑ l : Fin 1024, p5 (ix2 r l)) + (∑ l : Fin 1024, k0_pay35 T C s6 (ix2 r l) * s6 (ix2 r l))
          + ∑ l : Fin 1024, k0_pay35 T C s7 (ix2 r l) * s7 (ix2 r l) := by
  unfold k0_pay51
  exact congrArg₂ (fun a b : EReal => a + b) (congrArg₂ (fun a b : EReal => a + b) (congrArg (fun z => d (ix2 r (0 : Fin 1)) + z) (tileSum_apply p5 _ _ _ _ r)) (tileSum_apply (mulf (k0_pay35 T C s6) s6) _ _ _ _ r)) (tileSum_apply (mulf (k0_pay35 T C s7) s7) _ _ _ _ r)
/-! ## The reciprocal and the two results -/

theorem pay1_apply (d : FVec Ideal S256x1 .f32) (r : Fin 256) :
    k0_pay1 (F := Ideal) d (ix2 r (0 : Fin 1)) = Ideal.div (Ideal.ofBits .f32 0x3F800000#32) (d (ix2 r (0 : Fin 1))) := rfl
theorem pay2_apply (d n : FVec Ideal S256x1 .f32) (r : Fin 256) :
    k0_pay2 (F := Ideal) d n (ix2 r (0 : Fin 1))
      = n (ix2 r (0 : Fin 1)) * Ideal.div (Ideal.ofBits .f32 0x3F800000#32) (d (ix2 r (0 : Fin 1))) := rfl
theorem pay3_apply (a : FVec Ideal S256x256 .f32) (d : FVec Ideal S256x1 .f32) (e7 : FVec Ideal S256x1024 .bf16) (h7 : FVec Ideal S1024x256 .bf16) (r j : Fin 256) :
    k0_pay3 (F := Ideal) a d e7 (k0_pay53 h7) (constant (F := Ideal) S256x256 .f32 0x00000000#32) (ix2 r j)
      = (a (ix2 r j) + ∑ l : Fin 1024, e7 (ix2 r l) * h7 (ix2 l j))
          * Ideal.div (Ideal.ofBits .f32 0x3F800000#32) (d (ix2 r (0 : Fin 1))) := by
  unfold k0_pay3 k0_pay53
  simp only [mulf_apply, addf_apply, wgtTile_apply, colToBlock_apply]
  rfl
theorem pay30_apply (r j : Fin 256) : k0_pay30 (F := Ideal) (ix2 r j) = Ideal.ofBits .f32 0x00000000#32 := rfl

end Cert.KernPay

end
-- ==== Proof.KernScratch.lean ====
/-
  Where a tile sits in its array. A load of 1024 consecutive candidates (rows of the candidates' array, or columns
  of the intercepts' row) starting at `t · 1024` reads candidate `t · 1024 + l` at its place `l`; and the scratch,
  filled by eight stores of 256 × 1024 tiles side by side, reads back tile by tile as what was stored — the stores'
  rectangles are disjoint and tile the buffer, so no store disturbs another's tile.
-/
import proofs.«115138_g88089779241353_cont_9to1c4b_404_6_alg».proof.KernelIdeal
import proofs.«115138_g88089779241353_cont_9to1c4b_404_6_alg».proof.Proof.Tiles
import Idealize.ShloMosaic.Lib.Pipeline.Value
import Idealize.ShloMosaic.Lib.ValueIdx

noncomputable section

namespace Cert.KernScratch

open Idealize.ShloMosaic Idealize.ShloMosaic.ValueIdx Cert.KernelIdeal Cert.Tiles

/-! ## One tile at a variable place -/

/-- A load of 1024 rows of the candidates' array from row `o = t · 1024` reads candidate `t · 1024 + l` at row `l`. -/
private theorem ld_cands_gen {e : EltTy} (X : S8192x256.Idx → Elt Ideal e) (o : Nat) (t : Fin 8) (ho : o = t.val * 1024)
    (inb : ∀ a, (![o, 0] : Fin 2 → Nat) a + S1024x256.size a ≤ S8192x256.size a) (l : Fin 1024) (j : Fin 256) :
    View.ld (Val := Elt Ideal) X (Rect.unit ![o, 0] S1024x256.size inb) (ix2 l j) = X (ix2 (cand t l) j) := by
  show X ((Rect.unit (s := S8192x256) ![o, 0] S1024x256.size inb).idx (ix2 l j)) = X (ix2 (cand t l) j)
  refine congrArg X (funext fun a => Fin.ext ?_)
  match a with
  | ⟨0, _⟩ => show o + 1 * l.val = t.val * 1024 + l.val; omega
  | ⟨1, _⟩ => show 0 + 1 * j.val = j.val; omega

/-- A load of 1024 columns of the intercepts' row from column `o = t · 1024` reads candidate `t · 1024 + l` at column `l`. -/
private theorem ld_icpts_gen (X : S1x8192.Idx → Elt Ideal .f32) (o : Nat) (t : Fin 8) (ho : o = t.val * 1024)
    (inb : ∀ a, (![0, o] : Fin 2 → Nat) a + S1x1024.size a ≤ S1x8192.size a) (l : Fin 1024) :
    View.ld (Val := Elt Ideal) X (Rect.unit ![0, o] S1x1024.size inb) (ix2 (0 : Fin 1) l)
      = X (ix2 (0 : Fin 1) (cand t l)) := by
  show X ((Rect.unit (s := S1x8192) ![0, o] S1x1024.size inb).idx (ix2 (0 : Fin 1) l)) = X (ix2 (0 : Fin 1) (cand t l))
  refine congrArg X (funext fun a => Fin.ext ?_)
  match a with
  | ⟨0, _⟩ => rfl
  | ⟨1, _⟩ => show o + 1 * l.val = t.val * 1024 + l.val; omega

/-- Eight tiles side by side as one function of the scratch's index: entry `(p, c)` is tile `c / 1024` at `(p, c % 1024)`. -/
private def sideBySide (P : Fin 8 → FVec Ideal S256x1024 .f32) : S256x8192.Idx → Elt Ideal .f32 :=
  fun i => P ⟨(i 1).val / 1024, by have := idx2_lt1 i; omega⟩
    (ix2 (⟨(i 0).val, idx2_lt0 i⟩ : Fin 256) (⟨(i 1).val % 1024, Nat.mod_lt _ (by decide)⟩ : Fin 1024))

/-- At an index whose row is `p` and whose column is `t · 1024 + q` that function is tile `t` at `(p, q)`: the column's
    quotient by 1024 is `t` and its remainder `q`. -/
private theorem sideBySide_apply (P : Fin 8 → FVec Ideal S256x1024 .f32) (t : Fin 8) (p : Fin 256) (q : Fin 1024)
    (y : S256x8192.Idx) (h0 : (y 0).val = p.val) (h1 : (y 1).val = t.val * 1024 + q.val) :
    sideBySide P y = P t (ix2 p q) := by
  have key : ∀ (a : Fin 8) (b : Fin 256) (c : Fin 1024), a = t → b = p → c = q → P a (ix2 b c) = P t (ix2 p q) := by
    rintro _ _ _ rfl rfl rfl; rfl
  have hq := q.isLt
  exact key _ _ _ (Fin.ext (by show (y 1).val / 1024 = t.val; omega)) (Fin.ext h0)
    (Fin.ext (by show (y 1).val % 1024 = q.val; omega))

/-- Tile `t`, placed at column `o = t · 1024`, is the block of that function its rectangle names. -/
private theorem piece_eq (P : Fin 8 → FVec Ideal S256x1024 .f32) (t : Fin 8) (o : Nat) (ho : o = t.val * 1024)
    (h : ∀ a, (![0, o] : Fin 2 → Nat) a + S256x1024.size a ≤ S256x8192.size a)
    (x : (Rect.unit (s := S256x8192) ![0, o] S256x1024.size h).shape.Idx) :
    P t x = sideBySide P ((Rect.unit (s := S256x8192) ![0, o] S256x1024.size h).emb x) := by
  obtain ⟨p, q, rfl⟩ : ∃ (p : Fin 256) (q : Fin 1024), x = ix2 p q := ⟨x 0, x 1, eq_ix2 x⟩
  exact (sideBySide_apply P t p q _ (by show 0 + 1 * p.val = p.val; omega)
    (by show o + 1 * q.val = t.val * 1024 + q.val; omega)).symm

/-- After the eight stores, a load through tile `t`'s own rectangle reads tile `t`: every stored tile is a block of the
    one side-by-side function, and the loaded rectangle is one of the stored ones. -/
private theorem scratch_gen {sig : RefSig} {κ : Kind} {sp : Space} (v : View sig κ sp S256x8192 .f32)
    (P : Fin 8 → FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (o : Nat) (t : Fin 8) (ho : o = t.val * 1024)
    (hb : ∀ a, (![0, o] : Fin 2 → Nat) a + S256x1024.size a ≤ S256x8192.size a)
    (hmem : (⟨Rect.unit (s := S256x8192) ![0, o] S256x1024.size hb, P t⟩ : View.Piece (Elt Ideal) S256x8192 .f32) ∈
      [⟨Rect.unit (s := S256x8192) ![0, 7168] S256x1024.size h7, P 7⟩,
        ⟨Rect.unit (s := S256x8192) ![0, 6144] S256x1024.size h6, P 6⟩,
        ⟨Rect.unit (s := S256x8192) ![0, 5120] S256x1024.size h5, P 5⟩,
        ⟨Rect.unit (s := S256x8192) ![0, 4096] S256x1024.size h4, P 4⟩,
        ⟨Rect.unit (s := S256x8192) ![0, 3072] S256x1024.size h3, P 3⟩,
        ⟨Rect.unit (s := S256x8192) ![0, 2048] S256x1024.size h2, P 2⟩,
        ⟨Rect.unit (s := S256x8192) ![0, 1024] S256x1024.size h1, P 1⟩,
        ⟨Rect.unit (s := S256x8192) ![0, 0] S256x1024.size h0, P 0⟩]) :
    v.readCov (Val := Elt Ideal)
      [⟨Rect.unit (s := S256x8192) ![0, 7168] S256x1024.size h7, P 7⟩,
        ⟨Rect.unit (s := S256x8192) ![0, 6144] S256x1024.size h6, P 6⟩,
        ⟨Rect.unit (s := S256x8192) ![0, 5120] S256x1024.size h5, P 5⟩,
        ⟨Rect.unit (s := S256x8192) ![0, 4096] S256x1024.size h4, P 4⟩,
        ⟨Rect.unit (s := S256x8192) ![0, 3072] S256x1024.size h3, P 3⟩,
        ⟨Rect.unit (s := S256x8192) ![0, 2048] S256x1024.size h2, P 2⟩,
        ⟨Rect.unit (s := S256x8192) ![0, 1024] S256x1024.size h1, P 1⟩,
        ⟨Rect.unit (s := S256x8192) ![0, 0] S256x1024.size h0, P 0⟩]
      (Rect.unit (s := S256x8192) ![0, o] S256x1024.size hb).toLoadRect = P t := by
  rw [View.readCov_eq_canon']
  funext j
  refine (View.canon_apply_of_pieces (sideBySide P) _ ?_ _ ⟨_, hmem, LoadRect.idx_mem _ j⟩).trans
    (piece_eq P t o ho hb j).symm
  intro p hp
  simp only [List.mem_cons, List.not_mem_nil, or_false] at hp
  rcases hp with rfl | rfl | rfl | rfl | rfl | rfl | rfl | rfl
  · exact piece_eq P 7 7168 rfl h7
  · exact piece_eq P 6 6144 rfl h6
  · exact piece_eq P 5 5120 rfl h5
  · exact piece_eq P 4 4096 rfl h4
  · exact piece_eq P 3 3072 rfl h3
  · exact piece_eq P 2 2048 rfl h2
  · exact piece_eq P 1 1024 rfl h1
  · exact piece_eq P 0 0 rfl h0

/-! ## Loads of a tile of candidates and of a tile of intercepts -/

theorem ld_cands0 {e : EltTy} (X : S8192x256.Idx → Elt Ideal e)
    (inb : ∀ a, (![0, 0] : Fin 2 → Nat) a + S1024x256.size a ≤ S8192x256.size a) (l : Fin 1024) (j : Fin 256) :
    View.ld (Val := Elt Ideal) X (Rect.unit ![0, 0] S1024x256.size inb) (ix2 l j) = X (ix2 (cand 0 l) j) := by
  exact ld_cands_gen X 0 0 rfl inb l j
theorem ld_icpts0 (X : S1x8192.Idx → Elt Ideal .f32)
    (inb : ∀ a, (![0, 0] : Fin 2 → Nat) a + S1x1024.size a ≤ S1x8192.size a) (l : Fin 1024) :
    View.ld (Val := Elt Ideal) X (Rect.unit ![0, 0] S1x1024.size inb) (ix2 (0 : Fin 1) l)
      = X (ix2 (0 : Fin 1) (cand 0 l)) := by
  exact ld_icpts_gen X 0 0 rfl inb l

theorem ld_cands1 {e : EltTy} (X : S8192x256.Idx → Elt Ideal e)
    (inb : ∀ a, (![1024, 0] : Fin 2 → Nat) a + S1024x256.size a ≤ S8192x256.size a) (l : Fin 1024) (j : Fin 256) :
    View.ld (Val := Elt Ideal) X (Rect.unit ![1024, 0] S1024x256.size inb) (ix2 l j) = X (ix2 (cand 1 l) j) := by
  exact ld_cands_gen X 1024 1 rfl inb l j
theorem ld_icpts1 (X : S1x8192.Idx → Elt Ideal .f32)
    (inb : ∀ a, (![0, 1024] : Fin 2 → Nat) a + S1x1024.size a ≤ S1x8192.size a) (l : Fin 1024) :
    View.ld (Val := Elt Ideal) X (Rect.unit ![0, 1024] S1x1024.size inb) (ix2 (0 : Fin 1) l)
      = X (ix2 (0 : Fin 1) (cand 1 l)) := by
  exact ld_icpts_gen X 1024 1 rfl inb l

theorem ld_cands2 {e : EltTy} (X : S8192x256.Idx → Elt Ideal e)
    (inb : ∀ a, (![2048, 0] : Fin 2 → Nat) a + S1024x256.size a ≤ S8192x256.size a) (l : Fin 1024) (j : Fin 256) :
    View.ld (Val := Elt Ideal) X (Rect.unit ![2048, 0] S1024x256.size inb) (ix2 l j) = X (ix2 (cand 2 l) j) := by
  exact ld_cands_gen X 2048 2 rfl inb l j
theorem ld_icpts2 (X : S1x8192.Idx → Elt Ideal .f32)
    (inb : ∀ a, (![0, 2048] : Fin 2 → Nat) a + S1x1024.size a ≤ S1x8192.size a) (l : Fin 1024) :
    View.ld (Val := Elt Ideal) X (Rect.unit ![0, 2048] S1x1024.size inb) (ix2 (0 : Fin 1) l)
      = X (ix2 (0 : Fin 1) (cand 2 l)) := by
  exact ld_icpts_gen X 2048 2 rfl inb l

theorem ld_cands3 {e : EltTy} (X : S8192x256.Idx → Elt Ideal e)
    (inb : ∀ a, (![3072, 0] : Fin 2 → Nat) a + S1024x256.size a ≤ S8192x256.size a) (l : Fin 1024) (j : Fin 256) :
    View.ld (Val := Elt Ideal) X (Rect.unit ![3072, 0] S1024x256.size inb) (ix2 l j) = X (ix2 (cand 3 l) j) := by
  exact ld_cands_gen X 3072 3 rfl inb l j
theorem ld_icpts3 (X : S1x8192.Idx → Elt Ideal .f32)
    (inb : ∀ a, (![0, 3072] : Fin 2 → Nat) a + S1x1024.size a ≤ S1x8192.size a) (l : Fin 1024) :
    View.ld (Val := Elt Ideal) X (Rect.unit ![0, 3072] S1x1024.size inb) (ix2 (0 : Fin 1) l)
      = X (ix2 (0 : Fin 1) (cand 3 l)) := by
  exact ld_icpts_gen X 3072 3 rfl inb l

theorem ld_cands4 {e : EltTy} (X : S8192x256.Idx → Elt Ideal e)
    (inb : ∀ a, (![4096, 0] : Fin 2 → Nat) a + S1024x256.size a ≤ S8192x256.size a) (l : Fin 1024) (j : Fin 256) :
    View.ld (Val := Elt Ideal) X (Rect.unit ![4096, 0] S1024x256.size inb) (ix2 l j) = X (ix2 (cand 4 l) j) := by
  exact ld_cands_gen X 4096 4 rfl inb l j
theorem ld_icpts4 (X : S1x8192.Idx → Elt Ideal .f32)
    (inb : ∀ a, (![0, 4096] : Fin 2 → Nat) a + S1x1024.size a ≤ S1x8192.size a) (l : Fin 1024) :
    View.ld (Val := Elt Ideal) X (Rect.unit ![0, 4096] S1x1024.size inb) (ix2 (0 : Fin 1) l)
      = X (ix2 (0 : Fin 1) (cand 4 l)) := by
  exact ld_icpts_gen X 4096 4 rfl inb l

theorem ld_cands5 {e : EltTy} (X : S8192x256.Idx → Elt Ideal e)
    (inb : ∀ a, (![5120, 0] : Fin 2 → Nat) a + S1024x256.size a ≤ S8192x256.size a) (l : Fin 1024) (j : Fin 256) :
    View.ld (Val := Elt Ideal) X (Rect.unit ![5120, 0] S1024x256.size inb) (ix2 l j) = X (ix2 (cand 5 l) j) := by
  exact ld_cands_gen X 5120 5 rfl inb l j
theorem ld_icpts5 (X : S1x8192.Idx → Elt Ideal .f32)
    (inb : ∀ a, (![0, 5120] : Fin 2 → Nat) a + S1x1024.size a ≤ S1x8192.size a) (l : Fin 1024) :
    View.ld (Val := Elt Ideal) X (Rect.unit ![0, 5120] S1x1024.size inb) (ix2 (0 : Fin 1) l)
      = X (ix2 (0 : Fin 1) (cand 5 l)) := by
  exact ld_icpts_gen X 5120 5 rfl inb l

theorem ld_cands6 {e : EltTy} (X : S8192x256.Idx → Elt Ideal e)
    (inb : ∀ a, (![6144, 0] : Fin 2 → Nat) a + S1024x256.size a ≤ S8192x256.size a) (l : Fin 1024) (j : Fin 256) :
    View.ld (Val := Elt Ideal) X (Rect.unit ![6144, 0] S1024x256.size inb) (ix2 l j) = X (ix2 (cand 6 l) j) := by
  exact ld_cands_gen X 6144 6 rfl inb l j
theorem ld_icpts6 (X : S1x8192.Idx → Elt Ideal .f32)
    (inb : ∀ a, (![0, 6144] : Fin 2 → Nat) a + S1x1024.size a ≤ S1x8192.size a) (l : Fin 1024) :
    View.ld (Val := Elt Ideal) X (Rect.unit ![0, 6144] S1x1024.size inb) (ix2 (0 : Fin 1) l)
      = X (ix2 (0 : Fin 1) (cand 6 l)) := by
  exact ld_icpts_gen X 6144 6 rfl inb l

theorem ld_cands7 {e : EltTy} (X : S8192x256.Idx → Elt Ideal e)
    (inb : ∀ a, (![7168, 0] : Fin 2 → Nat) a + S1024x256.size a ≤ S8192x256.size a) (l : Fin 1024) (j : Fin 256) :
    View.ld (Val := Elt Ideal) X (Rect.unit ![7168, 0] S1024x256.size inb) (ix2 l j) = X (ix2 (cand 7 l) j) := by
  exact ld_cands_gen X 7168 7 rfl inb l j
theorem ld_icpts7 (X : S1x8192.Idx → Elt Ideal .f32)
    (inb : ∀ a, (![0, 7168] : Fin 2 → Nat) a + S1x1024.size a ≤ S1x8192.size a) (l : Fin 1024) :
    View.ld (Val := Elt Ideal) X (Rect.unit ![0, 7168] S1x1024.size inb) (ix2 (0 : Fin 1) l)
      = X (ix2 (0 : Fin 1) (cand 7 l)) := by
  exact ld_icpts_gen X 7168 7 rfl inb l

/-! ## The scratch read back -/

/-- Tile 0 of the scratch read back is what was stored to it. -/
theorem scratch_tile0 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 0] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 0] S256x1024.size hb).toLoadRect = P0 := by
  exact scratch_gen v ![P0, P1, P2, P3, P4, P5, P6, P7] h0 h1 h2 h3 h4 h5 h6 h7 0 0 rfl hb (.tail _ (.tail _ (.tail _ (.tail _ (.tail _ (.tail _ (.tail _ (.head _))))))))

/-- Tile 1 of the scratch read back is what was stored to it. -/
theorem scratch_tile1 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 1024] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 1024] S256x1024.size hb).toLoadRect = P1 := by
  exact scratch_gen v ![P0, P1, P2, P3, P4, P5, P6, P7] h0 h1 h2 h3 h4 h5 h6 h7 1024 1 rfl hb (.tail _ (.tail _ (.tail _ (.tail _ (.tail _ (.tail _ (.head _)))))))

/-- Tile 2 of the scratch read back is what was stored to it. -/
theorem scratch_tile2 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 2048] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 2048] S256x1024.size hb).toLoadRect = P2 := by
  exact scratch_gen v ![P0, P1, P2, P3, P4, P5, P6, P7] h0 h1 h2 h3 h4 h5 h6 h7 2048 2 rfl hb (.tail _ (.tail _ (.tail _ (.tail _ (.tail _ (.head _))))))

/-- Tile 3 of the scratch read back is what was stored to it. -/
theorem scratch_tile3 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 3072] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 3072] S256x1024.size hb).toLoadRect = P3 := by
  exact scratch_gen v ![P0, P1, P2, P3, P4, P5, P6, P7] h0 h1 h2 h3 h4 h5 h6 h7 3072 3 rfl hb (.tail _ (.tail _ (.tail _ (.tail _ (.head _)))))

/-- Tile 4 of the scratch read back is what was stored to it. -/
theorem scratch_tile4 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 4096] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 4096] S256x1024.size hb).toLoadRect = P4 := by
  exact scratch_gen v ![P0, P1, P2, P3, P4, P5, P6, P7] h0 h1 h2 h3 h4 h5 h6 h7 4096 4 rfl hb (.tail _ (.tail _ (.tail _ (.head _))))

/-- Tile 5 of the scratch read back is what was stored to it. -/
theorem scratch_tile5 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 5120] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 5120] S256x1024.size hb).toLoadRect = P5 := by
  exact scratch_gen v ![P0, P1, P2, P3, P4, P5, P6, P7] h0 h1 h2 h3 h4 h5 h6 h7 5120 5 rfl hb (.tail _ (.tail _ (.head _)))

/-- Tile 6 of the scratch read back is what was stored to it. -/
theorem scratch_tile6 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 6144] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 6144] S256x1024.size hb).toLoadRect = P6 := by
  exact scratch_gen v ![P0, P1, P2, P3, P4, P5, P6, P7] h0 h1 h2 h3 h4 h5 h6 h7 6144 6 rfl hb (.tail _ (.head _))

/-- Tile 7 of the scratch read back is what was stored to it. -/
theorem scratch_tile7 {sig : RefSig} {κ : Kind} {sp : Space} (v : View sig κ sp S256x8192 .f32)
    (P0 P1 P2 P3 P4 P5 P6 P7 : FVec Ideal S256x1024 .f32)
    (h0 : ∀ a, (![0, 0] : Fin 2 → Nat) a + S256x1024.size a ≤ S256x8192.size a)
    (h1 : ∀ a, (![0, 1024] : Fin 2 → Nat) a + S256x1024.size a ≤ S256x8192.size a)
    (h2 : ∀ a, (![0, 2048] : Fin 2 → Nat) a + S256x1024.size a ≤ S256x8192.size a)
    (h3 : ∀ a, (![0, 3072] : Fin 2 → Nat) a + S256x1024.size a ≤ S256x8192.size a)
    (h4 : ∀ a, (![0, 4096] : Fin 2 → Nat) a + S256x1024.size a ≤ S256x8192.size a)
    (h5 : ∀ a, (![0, 5120] : Fin 2 → Nat) a + S256x1024.size a ≤ S256x8192.size a)
    (h6 : ∀ a, (![0, 6144] : Fin 2 → Nat) a + S256x1024.size a ≤ S256x8192.size a)
    (h7 : ∀ a, (![0, 7168] : Fin 2 → Nat) a + S256x1024.size a ≤ S256x8192.size a)
    (hb : ∀ a, (![0, 7168] : Fin 2 → Nat) a + S256x1024.size a ≤ S256x8192.size a) :
    v.readCov (Val := Elt Ideal)
      [⟨Rect.unit (s := S256x8192) ![0, 7168] S256x1024.size h7, P7⟩,
        ⟨Rect.unit (s := S256x8192) ![0, 6144] S256x1024.size h6, P6⟩,
        ⟨Rect.unit (s := S256x8192) ![0, 5120] S256x1024.size h5, P5⟩,
        ⟨Rect.unit (s := S256x8192) ![0, 4096] S256x1024.size h4, P4⟩,
        ⟨Rect.unit (s := S256x8192) ![0, 3072] S256x1024.size h3, P3⟩,
        ⟨Rect.unit (s := S256x8192) ![0, 2048] S256x1024.size h2, P2⟩,
        ⟨Rect.unit (s := S256x8192) ![0, 1024] S256x1024.size h1, P1⟩,
        ⟨Rect.unit (s := S256x8192) ![0, 0] S256x1024.size h0, P0⟩]
      (Rect.unit (s := S256x8192) ![0, 7168] S256x1024.size hb).toLoadRect = P7 := by
  exact scratch_gen v ![P0, P1, P2, P3, P4, P5, P6, P7] h0 h1 h2 h3 h4 h5 h6 h7 7168 7 rfl hb (.head _)

end Cert.KernScratch

end
-- ==== Proof.KernRow.lean ====
/-
  The kernel body's two results at a row of its block, as the soft selection walked tile by tile (TileSoft.lean):
  row `r` of the block of `x` against all 8192 candidates gives the row's scores, tile `t` holding candidates
  `t · 1024 … t · 1024 + 1023`; the second output's entry is the row's weighted score, the first output's entry at
  coordinate `j` the row's weighted candidates' coordinate `j`.

  The body's one store to each output covers its whole block, so the block holds the stored value; the loads of
  the inputs are slices of the input blocks (a tile's entry sits at candidate `t · 1024 + l`); the scratch read back tile by tile is the tile of scores stored there;
  each value then reads at the row by the lemmas of KernPay.lean, and what comes out is TileSoft's arrangement term
  for term.
-/
import proofs.«115138_g88089779241353_cont_9to1c4b_404_6_alg».proof.Proof.Gen.KernelIdeal.Frame
import proofs.«115138_g88089779241353_cont_9to1c4b_404_6_alg».proof.Proof.TileSoft
import proofs.«115138_g88089779241353_cont_9to1c4b_404_6_alg».proof.Proof.KernPay
import proofs.«115138_g88089779241353_cont_9to1c4b_404_6_alg».proof.Proof.KernScratch
import Idealize.ShloMosaic.Lib.ValueIdx
import Idealize.ShloMosaic.Lib.Pipeline.Value

set_option maxRecDepth 16384

noncomputable section

namespace Cert.KernRow

open Idealize.ShloMosaic Idealize.ShloMosaic.ValueIdx Idealize.ShloMosaic.Tactic Cert.KernelIdeal Cert.KernelIdeal.Gen Cert.Tiles
open Cert.KernPay Cert.KernScratch

/-- The scores of row `r` of a block `x0` against the candidates `x1` with intercepts `x3`, tile by tile. -/
def rowScores (x0 : Vec Ideal S256x256 .f32) (x1 : Vec Ideal S8192x256 .f32) (x3 : Vec Ideal S1x8192 .f32) (r : Fin 256) :
    Fin 8 → Fin 1024 → EReal := fun t l =>
  Cert.Soft.score (fun j : Fin 256 => x0 (ix2 r j)) (fun (k : Fin 8192) (j : Fin 256) => x1 (ix2 k j))
    (fun k : Fin 8192 => x3 (ix2 (0 : Fin 1) k)) (cand t l)

/-- Coordinate `j` of the candidates' second copy `x2`, tile by tile. -/
def rowCands (x2 : Vec Ideal S8192x256 .bf16) (j : Fin 256) : Fin 8 → Fin 1024 → EReal := fun t l => x2 (ix2 (cand t l) j)

/-- The whole-block rectangle's offsets are zero. -/
theorem hz : (![0, 0] : Fin 2 → Nat) = fun _ => 0 := funext fun a => by fin_cases a <;> rfl

/-! ## Where a loaded tile's entry sits in its array -/

/-- Entry `(l, j)` of the tile of 1024 candidates loaded from row `o = t · 1024` is candidate `t · 1024 + l`. -/
theorem idxc (o : Nat) (t : Fin 8) (ho : o = t.val * 1024)
    (inb : ∀ a, (![o, 0] : Fin 2 → Nat) a + S1024x256.size a ≤ S8192x256.size a) (l : Fin 1024) (j : Fin 256) :
    (Rect.unit (s := S8192x256) ![o, 0] S1024x256.size inb).idx (ix2 l j) = ix2 (cand t l) j := by
  subst ho
  funext a; apply Fin.ext
  match a with
  | ⟨0, _⟩ => show t.val * 1024 + 1 * l.val = t.val * 1024 + l.val; omega
  | ⟨1, _⟩ => show 0 + 1 * j.val = j.val; omega

/-- Entry `l` of the tile of 1024 intercepts loaded from column `o = t · 1024` is candidate `t · 1024 + l`'s. -/
theorem idxi (o : Nat) (t : Fin 8) (ho : o = t.val * 1024)
    (inb : ∀ a, (![0, o] : Fin 2 → Nat) a + S1x1024.size a ≤ S1x8192.size a) (l : Fin 1024) :
    (Rect.unit (s := S1x8192) ![0, o] S1x1024.size inb).idx (ix2 (0 : Fin 1) l) = ix2 (0 : Fin 1) (cand t l) := by
  subst ho
  funext a; apply Fin.ext
  match a with
  | ⟨0, _⟩ => show 0 + 1 * 0 = 0; omega
  | ⟨1, _⟩ => show t.val * 1024 + 1 * l.val = t.val * 1024 + l.val; omega

theorem idxc0 (inb : ∀ a, (![0, 0] : Fin 2 → Nat) a + (![1024, 256] : Fin 2 → Nat) a ≤ S8192x256.size a) (l : Fin 1024) (j : Fin 256) :
    (Rect.unit (s := S8192x256) ![0, 0] ![1024, 256] inb).idx (ix2 l j) = ix2 (cand 0 l) j := idxc 0 0 rfl inb l j
theorem idxi0 (inb : ∀ a, (![0, 0] : Fin 2 → Nat) a + (![1, 1024] : Fin 2 → Nat) a ≤ S1x8192.size a) (l : Fin 1024) :
    (Rect.unit (s := S1x8192) ![0, 0] ![1, 1024] inb).idx (ix2 (0 : Fin 1) l) = ix2 (0 : Fin 1) (cand 0 l) := idxi 0 0 rfl inb l
theorem idxc1 (inb : ∀ a, (![1024, 0] : Fin 2 → Nat) a + (![1024, 256] : Fin 2 → Nat) a ≤ S8192x256.size a) (l : Fin 1024) (j : Fin 256) :
    (Rect.unit (s := S8192x256) ![1024, 0] ![1024, 256] inb).idx (ix2 l j) = ix2 (cand 1 l) j := idxc 1024 1 rfl inb l j
theorem idxi1 (inb : ∀ a, (![0, 1024] : Fin 2 → Nat) a + (![1, 1024] : Fin 2 → Nat) a ≤ S1x8192.size a) (l : Fin 1024) :
    (Rect.unit (s := S1x8192) ![0, 1024] ![1, 1024] inb).idx (ix2 (0 : Fin 1) l) = ix2 (0 : Fin 1) (cand 1 l) := idxi 1024 1 rfl inb l
theorem idxc2 (inb : ∀ a, (![2048, 0] : Fin 2 → Nat) a + (![1024, 256] : Fin 2 → Nat) a ≤ S8192x256.size a) (l : Fin 1024) (j : Fin 256) :
    (Rect.unit (s := S8192x256) ![2048, 0] ![1024, 256] inb).idx (ix2 l j) = ix2 (cand 2 l) j := idxc 2048 2 rfl inb l j
theorem idxi2 (inb : ∀ a, (![0, 2048] : Fin 2 → Nat) a + (![1, 1024] : Fin 2 → Nat) a ≤ S1x8192.size a) (l : Fin 1024) :
    (Rect.unit (s := S1x8192) ![0, 2048] ![1, 1024] inb).idx (ix2 (0 : Fin 1) l) = ix2 (0 : Fin 1) (cand 2 l) := idxi 2048 2 rfl inb l
theorem idxc3 (inb : ∀ a, (![3072, 0] : Fin 2 → Nat) a + (![1024, 256] : Fin 2 → Nat) a ≤ S8192x256.size a) (l : Fin 1024) (j : Fin 256) :
    (Rect.unit (s := S8192x256) ![3072, 0] ![1024, 256] inb).idx (ix2 l j) = ix2 (cand 3 l) j := idxc 3072 3 rfl inb l j
theorem idxi3 (inb : ∀ a, (![0, 3072] : Fin 2 → Nat) a + (![1, 1024] : Fin 2 → Nat) a ≤ S1x8192.size a) (l : Fin 1024) :
    (Rect.unit (s := S1x8192) ![0, 3072] ![1, 1024] inb).idx (ix2 (0 : Fin 1) l) = ix2 (0 : Fin 1) (cand 3 l) := idxi 3072 3 rfl inb l
theorem idxc4 (inb : ∀ a, (![4096, 0] : Fin 2 → Nat) a + (![1024, 256] : Fin 2 → Nat) a ≤ S8192x256.size a) (l : Fin 1024) (j : Fin 256) :
    (Rect.unit (s := S8192x256) ![4096, 0] ![1024, 256] inb).idx (ix2 l j) = ix2 (cand 4 l) j := idxc 4096 4 rfl inb l j
theorem idxi4 (inb : ∀ a, (![0, 4096] : Fin 2 → Nat) a + (![1, 1024] : Fin 2 → Nat) a ≤ S1x8192.size a) (l : Fin 1024) :
    (Rect.unit (s := S1x8192) ![0, 4096] ![1, 1024] inb).idx (ix2 (0 : Fin 1) l) = ix2 (0 : Fin 1) (cand 4 l) := idxi 4096 4 rfl inb l
theorem idxc5 (inb : ∀ a, (![5120, 0] : Fin 2 → Nat) a + (![1024, 256] : Fin 2 → Nat) a ≤ S8192x256.size a) (l : Fin 1024) (j : Fin 256) :
    (Rect.unit (s := S8192x256) ![5120, 0] ![1024, 256] inb).idx (ix2 l j) = ix2 (cand 5 l) j := idxc 5120 5 rfl inb l j
theorem idxi5 (inb : ∀ a, (![0, 5120] : Fin 2 → Nat) a + (![1, 1024] : Fin 2 → Nat) a ≤ S1x8192.size a) (l : Fin 1024) :
    (Rect.unit (s := S1x8192) ![0, 5120] ![1, 1024] inb).idx (ix2 (0 : Fin 1) l) = ix2 (0 : Fin 1) (cand 5 l) := idxi 5120 5 rfl inb l
theorem idxc6 (inb : ∀ a, (![6144, 0] : Fin 2 → Nat) a + (![1024, 256] : Fin 2 → Nat) a ≤ S8192x256.size a) (l : Fin 1024) (j : Fin 256) :
    (Rect.unit (s := S8192x256) ![6144, 0] ![1024, 256] inb).idx (ix2 l j) = ix2 (cand 6 l) j := idxc 6144 6 rfl inb l j
theorem idxi6 (inb : ∀ a, (![0, 6144] : Fin 2 → Nat) a + (![1, 1024] : Fin 2 → Nat) a ≤ S1x8192.size a) (l : Fin 1024) :
    (Rect.unit (s := S1x8192) ![0, 6144] ![1, 1024] inb).idx (ix2 (0 : Fin 1) l) = ix2 (0 : Fin 1) (cand 6 l) := idxi 6144 6 rfl inb l
theorem idxc7 (inb : ∀ a, (![7168, 0] : Fin 2 → Nat) a + (![1024, 256] : Fin 2 → Nat) a ≤ S8192x256.size a) (l : Fin 1024) (j : Fin 256) :
    (Rect.unit (s := S8192x256) ![7168, 0] ![1024, 256] inb).idx (ix2 l j) = ix2 (cand 7 l) j := idxc 7168 7 rfl inb l j
theorem idxi7 (inb : ∀ a, (![0, 7168] : Fin 2 → Nat) a + (![1, 1024] : Fin 2 → Nat) a ≤ S1x8192.size a) (l : Fin 1024) :
    (Rect.unit (s := S1x8192) ![0, 7168] ![1, 1024] inb).idx (ix2 (0 : Fin 1) l) = ix2 (0 : Fin 1) (cand 7 l) := idxi 7168 7 rfl inb l

/-- The second output's block at row `r`. -/
theorem value_row (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec Ideal S256x256 .f32) (x1 : Vec Ideal S8192x256 .f32) (x2 : Vec Ideal S8192x256 .bf16) (x3 : Vec Ideal S1x8192 .f32)
    (r : Fin 256) :
    out0_A_5 (F := Ideal) c i arg1 harg1 arg2 harg2 arg3 harg3 arg4 harg4 arg5 harg5 arg6 harg6 arg7 harg7 x0 x1 x2 x3 (ix2 r (0 : Fin 1)) = Cert.TileSoft.value (rowScores x0 x1 x3 r) := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  rw [View.canon_unit_zero hz]
  sl_unfold_run_names
  rw [scratch_tile0, scratch_tile1, scratch_tile2, scratch_tile3, scratch_tile4, scratch_tile5, scratch_tile6, scratch_tile7]
  simp only [View.readAt_eq_ld, harg1.read_unread, harg2.read_unread, harg3.read_unread, harg4.read_unread,
    View.ld_unit_zero (S := S256x256) hz,
    pay2_apply, pay1_apply, pay3_apply, pay30_apply, pay50_apply, pay51_apply, pay45_apply, pay46_apply, pay48_apply, pay42_apply, pay43_apply, pay37_apply, pay38_apply, pay39_apply, pay32_apply, pay33_apply, pay34_eq, pay31_apply, pay35_apply, pay36_eq, pay40_eq, pay41_eq, pay44_eq, pay47_eq, pay49_eq, pay52_eq, pay28_apply, pay29_apply, pay27_apply, pay23_apply, pay24_apply, pay15_apply, pay16_apply, pay8_apply, pay9_apply, pay5_eq, pay7_eq, pay12_eq, pay14_eq, pay18_eq, pay20_eq, pay22_eq, pay26_eq, pay6_eq, pay13_eq, pay17_eq, pay19_eq, pay21_eq, pay25_eq, pay11_eq, pay4_apply, tmax, tmin]
  simp only [View.ld, idxc0, idxi0, idxc1, idxi1, idxc2, idxi2, idxc3, idxi3, idxc4, idxi4, idxc5, idxi5, idxc6, idxi6, idxc7, idxi7]
  simp only [Cert.TileSoft.value, Cert.TileSoft.numScore, Cert.TileSoft.den, Cert.TileSoft.w, Cert.TileSoft.rtemp,
    Cert.TileSoft.rmax, Cert.TileSoft.rmin, Cert.TileSoft.tmax, Cert.TileSoft.tmin, rowScores, Cert.Soft.score,
    Cert.Soft.negInf32, Cert.Soft.posInf32, Cert.Soft.zero32, Cert.Soft.one32, Cert.Soft.tempLo, Cert.Soft.tempHi,
    Cert.Soft.spanFloor]
  rfl

/-- The first output's block at row `r`, coordinate `j`. -/
theorem choice_row (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec Ideal S256x256 .f32) (x1 : Vec Ideal S8192x256 .f32) (x2 : Vec Ideal S8192x256 .bf16) (x3 : Vec Ideal S1x8192 .f32)
    (r j : Fin 256) :
    out0_A_4 (F := Ideal) c i arg1 harg1 arg2 harg2 arg3 harg3 arg4 harg4 arg5 harg5 arg6 harg6 arg7 harg7 x0 x1 x2 x3 (ix2 r j) = Cert.TileSoft.choice (rowScores x0 x1 x3 r) (rowCands x2 j) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_unit_zero hz]
  sl_unfold_run_names
  rw [scratch_tile0, scratch_tile1, scratch_tile2, scratch_tile3, scratch_tile4, scratch_tile5, scratch_tile6, scratch_tile7]
  simp only [View.readAt_eq_ld, harg1.read_unread, harg2.read_unread, harg3.read_unread, harg4.read_unread,
    View.ld_unit_zero (S := S256x256) hz,
    pay2_apply, pay1_apply, pay3_apply, pay30_apply, pay50_apply, pay51_apply, pay45_apply, pay46_apply, pay48_apply, pay42_apply, pay43_apply, pay37_apply, pay38_apply, pay39_apply, pay32_apply, pay33_apply, pay34_eq, pay31_apply, pay35_apply, pay36_eq, pay40_eq, pay41_eq, pay44_eq, pay47_eq, pay49_eq, pay52_eq, pay28_apply, pay29_apply, pay27_apply, pay23_apply, pay24_apply, pay15_apply, pay16_apply, pay8_apply, pay9_apply, pay5_eq, pay7_eq, pay12_eq, pay14_eq, pay18_eq, pay20_eq, pay22_eq, pay26_eq, pay6_eq, pay13_eq, pay17_eq, pay19_eq, pay21_eq, pay25_eq, pay11_eq, pay4_apply, tmax, tmin]
  simp only [View.ld, idxc0, idxi0, idxc1, idxi1, idxc2, idxi2, idxc3, idxi3, idxc4, idxi4, idxc5, idxi5, idxc6, idxi6, idxc7, idxi7]
  simp only [Cert.TileSoft.choice, Cert.TileSoft.numCand, Cert.TileSoft.den, Cert.TileSoft.w, Cert.TileSoft.rtemp,
    Cert.TileSoft.rmax, Cert.TileSoft.rmin, Cert.TileSoft.tmax, Cert.TileSoft.tmin, rowScores, rowCands, Cert.Soft.score,
    Cert.Soft.negInf32, Cert.Soft.posInf32, Cert.Soft.zero32, Cert.Soft.one32, Cert.Soft.tempLo, Cert.Soft.tempHi,
    Cert.Soft.spanFloor]
  rfl

end Cert.KernRow

end
-- ==== Proof.KernArrays.lean ====
/-
  The kernel's run with its two results named as whole-array functions of the arguments: every row of the first
  result is the row's weighted candidates, every entry of the second the row's weighted score (Soft.lean's first
  arrangement over the whole row of 8192 scores). Each grid point writes back a block of 256 rows; the blocks tile
  the arrays; the candidates and intercepts are staged whole; the candidates' reshape and its narrower copy before
  the region are the array itself on the extended reals, and the reshape after it drops the unit axis.
-/
import proofs.«115138_g88089779241353_cont_9to1c4b_404_6_alg».proof.Proof.KernRow
import Idealize.ShloMosaic.Lib.ValueIdx
import Idealize.ShloMosaic.Lib.Pipeline.Value

noncomputable section

namespace Cert.KernArrays

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Row `r` of the scores, from the launch contents of the three arguments. -/
abbrev rowScore (c : Dev nD) (r : Fin 4096) : Fin 8192 → EReal :=
  Cert.Soft.score (fun j : Fin 256 => m ((c.tc : Thread nD τ).loc main_arg0) (ix2 r j))
    (fun (k : Fin 8192) (j : Fin 256) => m ((c.tc : Thread nD τ).loc main_arg1) (ix3 (0 : Fin 1) k j))
    (fun k : Fin 8192 => m ((c.tc : Thread nD τ).loc main_arg2) (ix2 (0 : Fin 1) k))

/-- The first result: at row `r`, coordinate `j`, the row's weighted candidates' coordinate `j`. -/
def choiceArr (c : Dev nD) : Buf (Elt Ideal) ((c.tc : Thread nD τ).loc main_v0_0) := fun i =>
  Cert.Soft.meanCand (rowScore m c (i 0)) (fun k : Fin 8192 => m ((c.tc : Thread nD τ).loc main_arg1) (ix3 (0 : Fin 1) k (i 1)))

/-- The second result: at row `r` the row's weighted score. -/
def valueArr (c : Dev nD) : Buf (Elt Ideal) ((c.tc : Thread nD τ).loc main_v0_1) := fun i =>
  Cert.Soft.meanScore (rowScore m c (i 0))

/-! ## The arrays as the region finds them -/

/-- The rows `x`, the candidates after their reshape, the candidates' narrower copy and the intercepts, as the region
    finds them. -/
abbrev xArr (c : Dev nD) : Vec Ideal S4096x256 .f32 := V m c main_arg0
abbrev yArr (c : Dev nD) : Vec Ideal S8192x256 .f32 := V m c main_call0_v0
abbrev yhArr (c : Dev nD) : Vec Ideal S8192x256 .bf16 := V m c main_call0_v1
abbrev bArr (c : Dev nD) : Vec Ideal S1x8192 .f32 := V m c main_arg2

/-- The candidates' reshape before the region drops the leading unit axis. -/
theorem yArr_eq (c : Dev nD) :
    (V m c main_call0_v0 : S8192x256.Idx → EReal)
      = shapeCast S8192x256 (m ((c.tc : Thread nD τ).loc main_arg1)) shapeCasts_S1x8192x256_S8192x256 := by
  show StableHlo.after hostOps0 (fun b => m (c, b)) (Proc.devRef .tc main_call0_v0) = _
  after_results
  rfl

/-- The narrower copy is, on the extended reals, the reshape again. -/
theorem yhArr_eq (c : Dev nD) :
    (V m c main_call0_v1 : S8192x256.Idx → EReal)
      = shapeCast S8192x256 (m ((c.tc : Thread nD τ).loc main_arg1)) shapeCasts_S1x8192x256_S8192x256 := by
  show StableHlo.after hostOps0 (fun b => m (c, b)) (Proc.devRef .tc main_call0_v1) = _
  after_results
  rfl

/-- The reshape read at a candidate and a coordinate. -/
theorem reshape_apply (x1 : S1x8192x256.Idx → EReal) (k : Fin 8192) (j : Fin 256) :
    shapeCast S8192x256 x1 shapeCasts_S1x8192x256_S8192x256 (ix2 k j) = x1 (ix3 (0 : Fin 1) k j) :=
  shapeCast_apply x1 shapeCasts_S1x8192x256_S8192x256 (ix2 k j) (ix3 (0 : Fin 1) k j)
    (by rewrite [Shape.rowMajor_val_three, Shape.rowMajor_val_two]
        show (0 * 8192 + k.val) * 256 + j.val = k.val * 256 + j.val
        omega)

theorem yArr_apply (c : Dev nD) (k : Fin 8192) (j : Fin 256) :
    yArr m c (ix2 k j) = m ((c.tc : Thread nD τ).loc main_arg1) (ix3 (0 : Fin 1) k j) := by
  show (V m c main_call0_v0 : S8192x256.Idx → EReal) (ix2 k j) = _
  rw [yArr_eq m c]
  exact reshape_apply _ k j

theorem yhArr_apply (c : Dev nD) (k : Fin 8192) (j : Fin 256) :
    yhArr m c (ix2 k j) = m ((c.tc : Thread nD τ).loc main_arg1) (ix3 (0 : Fin 1) k j) := by
  show (V m c main_call0_v1 : S8192x256.Idx → EReal) (ix2 k j) = _
  rw [yhArr_eq m c]
  exact reshape_apply _ k j

/-! ## The windows' blocks -/

/-- The printed index maps, decided over the grid: the rows' window and the two results' windows are at block
    `(t, 0)`, the three whole windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The rows' block at point `t` is rows `256 t … 256 t + 255` of `x`. -/
theorem xblk_apply (c : Dev nD) (t : Fin cfg0.N) (y : S256x256.Idx) (k : S4096x256.Idx)
    (hk0 : (k 0).val = t.val * 256 + (y 0).val) (hk1 : (k 1).val = (y 1).val) :
    (iblk m c 0 t : Vec Ideal S256x256 .f32) y = xArr m c k := by
  obtain ⟨e0, e1, -⟩ := idx_facts t
  show V m c main_arg0 (((cfg0.win 0).blk t).view.emb y) = V m c main_arg0 k
  congr 1
  funext a
  apply Fin.ext
  match a with
  | ⟨0, _⟩ => show win0_0.index t (0 : Fin 2) * 256 + 1 * (y 0).val = (k 0).val; rw [e0, hk0]; omega
  | ⟨1, _⟩ => show win0_0.index t (1 : Fin 2) * 256 + 1 * (y 1).val = (k 1).val; rw [e1, hk1]; omega

/-- The candidates' window holds the whole array at every point. -/
theorem yblk_apply (c : Dev nD) (t : Fin cfg0.N) (y : S8192x256.Idx) :
    (iblk m c 1 t : Vec Ideal S8192x256 .f32) y = yArr m c y := by
  obtain ⟨-, -, e0, e1, -⟩ := idx_facts t
  show V m c main_call0_v0 (((cfg0.win 1).blk t).view.emb y) = V m c main_call0_v0 y
  congr 1
  funext a
  apply Fin.ext
  match a with
  | ⟨0, _⟩ => show win0_1.index t (0 : Fin 2) * 8192 + 1 * (y 0).val = (y 0).val; rw [e0]; omega
  | ⟨1, _⟩ => show win0_1.index t (1 : Fin 2) * 256 + 1 * (y 1).val = (y 1).val; rw [e1]; omega

/-- So does the narrower copy's. -/
theorem yhblk_apply (c : Dev nD) (t : Fin cfg0.N) (y : S8192x256.Idx) :
    (iblk m c 2 t : Vec Ideal S8192x256 .bf16) y = yhArr m c y := by
  obtain ⟨-, -, -, -, e0, e1, -⟩ := idx_facts t
  show V m c main_call0_v1 (((cfg0.win 2).blk t).view.emb y) = V m c main_call0_v1 y
  congr 1
  funext a
  apply Fin.ext
  match a with
  | ⟨0, _⟩ => show win0_2.index t (0 : Fin 2) * 8192 + 1 * (y 0).val = (y 0).val; rw [e0]; omega
  | ⟨1, _⟩ => show win0_2.index t (1 : Fin 2) * 256 + 1 * (y 1).val = (y 1).val; rw [e1]; omega

/-- And the intercepts'. -/
theorem bblk_apply (c : Dev nD) (t : Fin cfg0.N) (y : S1x8192.Idx) :
    (iblk m c 3 t : Vec Ideal S1x8192 .f32) y = bArr m c y := by
  obtain ⟨-, -, -, -, -, -, e0, e1, -⟩ := idx_facts t
  show V m c main_arg2 (((cfg0.win 3).blk t).view.emb y) = V m c main_arg2 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 8192 + 1 * (y 1).val = (y 1).val; rw [e1]; omega

/-! ## What a point writes back -/

/-- The first result as a function of the arrays the region finds: at row `R`, coordinate `J`, the weighted
    candidates' coordinate `J` of row `R`'s scores. -/
def choiceK (c : Dev nD) : S4096x256.Idx → EReal := fun i =>
  Cert.Soft.meanCand
    (Cert.Soft.score (fun j : Fin 256 => xArr m c (ix2 (i 0) j)) (fun (k : Fin 8192) (j : Fin 256) => yArr m c (ix2 k j))
      (fun k : Fin 8192 => bArr m c (ix2 (0 : Fin 1) k)))
    (fun k : Fin 8192 => yhArr m c (ix2 k (i 1)))

/-- The second result before its reshape, likewise: at row `R` the weighted score of row `R`'s scores. -/
def valueK (c : Dev nD) : S4096x1.Idx → EReal := fun i =>
  Cert.Soft.meanScore
    (Cert.Soft.score (fun j : Fin 256 => xArr m c (ix2 (i 0) j)) (fun (k : Fin 8192) (j : Fin 256) => yArr m c (ix2 k j))
      (fun k : Fin 8192 => bArr m c (ix2 (0 : Fin 1) k)))

/-- The body's first result at an index of its block, over any blocks that are row `R` of `X`, all of `Y` and `B`,
    and coordinate `J` of `YH`: the weighted candidates of that row. -/
theorem choice_block (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec Ideal S256x256 .f32) (x1 : Vec Ideal S8192x256 .f32) (x2 : Vec Ideal S8192x256 .bf16) (x3 : Vec Ideal S1x8192 .f32)
    (X : Vec Ideal S4096x256 .f32) (Y : Vec Ideal S8192x256 .f32) (YH : Vec Ideal S8192x256 .bf16) (B : Vec Ideal S1x8192 .f32)
    (R : Fin 4096) (J : Fin 256) (y : S256x256.Idx)
    (hx : ∀ j : Fin 256, x0 (ix2 (y 0) j) = X (ix2 R j)) (hy : ∀ (k : Fin 8192) (j : Fin 256), x1 (ix2 k j) = Y (ix2 k j))
    (hyh : ∀ k : Fin 8192, x2 (ix2 k (y 1)) = YH (ix2 k J)) (hb : ∀ k : Fin 8192, x3 (ix2 (0 : Fin 1) k) = B (ix2 (0 : Fin 1) k)) :
    out0_A_4 (F := Ideal) c i arg1 harg1 arg2 harg2 arg3 harg3 arg4 harg4 arg5 harg5 arg6 harg6 arg7 harg7 x0 x1 x2 x3 y
      = Cert.Soft.meanCand
          (Cert.Soft.score (fun j : Fin 256 => X (ix2 R j)) (fun (k : Fin 8192) (j : Fin 256) => Y (ix2 k j))
            (fun k : Fin 8192 => B (ix2 (0 : Fin 1) k)))
          (fun k : Fin 8192 => YH (ix2 k J)) := by
  have h := (Cert.KernRow.choice_row c i arg1 harg1 arg2 harg2 arg3 harg3 arg4 harg4 arg5 harg5 arg6 harg6 arg7 harg7 x0 x1 x2 x3 (y 0) (y 1)).trans
    (Cert.TileSoft.choice_eq
      (Cert.Soft.score (fun j : Fin 256 => x0 (ix2 (y 0) j)) (fun (k : Fin 8192) (j : Fin 256) => x1 (ix2 k j))
        (fun k : Fin 8192 => x3 (ix2 (0 : Fin 1) k)))
      (fun k : Fin 8192 => x2 (ix2 k (y 1))))
  refine ((congrArg (out0_A_4 (F := Ideal) c i arg1 harg1 arg2 harg2 arg3 harg3 arg4 harg4 arg5 harg5 arg6 harg6 arg7 harg7 x0 x1 x2 x3) (eq_ix2 y)).trans h).trans ?_
  simp only [hx, hy, hyh, hb]

/-- The body's second result at an index of its block, likewise: the weighted score of that row. -/
theorem value_block (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec Ideal S256x256 .f32) (x1 : Vec Ideal S8192x256 .f32) (x2 : Vec Ideal S8192x256 .bf16) (x3 : Vec Ideal S1x8192 .f32)
    (X : Vec Ideal S4096x256 .f32) (Y : Vec Ideal S8192x256 .f32) (B : Vec Ideal S1x8192 .f32)
    (R : Fin 4096) (y : S256x1.Idx)
    (hx : ∀ j : Fin 256, x0 (ix2 (y 0) j) = X (ix2 R j)) (hy : ∀ (k : Fin 8192) (j : Fin 256), x1 (ix2 k j) = Y (ix2 k j))
    (hb : ∀ k : Fin 8192, x3 (ix2 (0 : Fin 1) k) = B (ix2 (0 : Fin 1) k)) :
    out0_A_5 (F := Ideal) c i arg1 harg1 arg2 harg2 arg3 harg3 arg4 harg4 arg5 harg5 arg6 harg6 arg7 harg7 x0 x1 x2 x3 y
      = Cert.Soft.meanScore
          (Cert.Soft.score (fun j : Fin 256 => X (ix2 R j)) (fun (k : Fin 8192) (j : Fin 256) => Y (ix2 k j))
            (fun k : Fin 8192 => B (ix2 (0 : Fin 1) k))) := by
  have h := (Cert.KernRow.value_row c i arg1 harg1 arg2 harg2 arg3 harg3 arg4 harg4 arg5 harg5 arg6 harg6 arg7 harg7 x0 x1 x2 x3 (y 0)).trans
    (Cert.TileSoft.value_eq
      (Cert.Soft.score (fun j : Fin 256 => x0 (ix2 (y 0) j)) (fun (k : Fin 8192) (j : Fin 256) => x1 (ix2 k j))
        (fun k : Fin 8192 => x3 (ix2 (0 : Fin 1) k))))
  have ey : y = ix2 (y 0) (0 : Fin 1) := (eq_ix2 y).trans (congrArg (ix2 (y 0)) (Fin.eq_zero (y 1)))
  refine ((congrArg (out0_A_5 (F := Ideal) c i arg1 harg1 arg2 harg2 arg3 harg3 arg4 harg4 arg5 harg5 arg6 harg6 arg7 harg7 x0 x1 x2 x3) ey).trans h).trans ?_
  simp only [hx, hy, hb]

/-- Writing back the whole block leaves out nothing of it. -/
theorem cut4_apply (t : Fin cfg0.N) (X : Vec Ideal S256x256 .f32) (y : ((cfg0.win 4).xblock (grid0.coords t)).Idx) :
    (cfg0.win 4).cut (grid0.coords t) X y = X y := rfl
theorem cut5_apply (t : Fin cfg0.N) (X : Vec Ideal S256x1 .f32) (y : ((cfg0.win 5).xblock (grid0.coords t)).Idx) :
    (cfg0.win 5).cut (grid0.coords t) X y = X y := rfl

/-- What point `t` writes back to the first result is block `t` of `choiceK`. -/
theorem flushed4_eq (c : Dev nD) (t : Fin cfg0.N) :
    (dats m 0 c).flushed 4 t = ((cfg0.win 4).blk t).view.read (Elt Ideal) (choiceK m c) := by
  obtain ⟨-, -, -, -, -, -, -, -, e0, e1, -⟩ := idx_facts t
  show (cfg0.win 4).cut (grid0.coords t) ((dats m 0 c).after 4 t) = _
  rw [after0_4]
  unfold outsAt0
  dsimp only
  funext y
  refine (cut4_apply t (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)) y).trans ?_
  refine (choice_block c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
    (xArr m c) (yArr m c) (yhArr m c) (bArr m c) ((((cfg0.win 4).blk t).view.emb y) 0) ((((cfg0.win 4).blk t).view.emb y) 1) y
    (fun j => xblk_apply m c t (ix2 (y 0) j) (ix2 ((((cfg0.win 4).blk t).view.emb y) 0) j) ?_ rfl)
    (fun k j => yblk_apply m c t (ix2 k j))
    (fun k => (yhblk_apply m c t (ix2 k (y 1))).trans (congrArg (fun J : Fin 256 => yhArr m c (ix2 k J)) (Fin.ext ?_)))
    (fun k => bblk_apply m c t (ix2 (0 : Fin 1) k))).trans ?_
  · show win0_4.index t (0 : Fin 2) * 256 + 1 * (y 0).val = t.val * 256 + (y 0).val
    rw [e0]; omega
  · show (y 1).val = win0_4.index t (1 : Fin 2) * 256 + 1 * (y 1).val
    rw [e1]; omega
  · show _ = choiceK m c (((cfg0.win 4).blk t).view.emb y)
    unfold choiceK
    rfl

/-- What point `t` writes back to the second result is block `t` of `valueK`. -/
theorem flushed5_eq (c : Dev nD) (t : Fin cfg0.N) :
    (dats m 0 c).flushed 5 t = ((cfg0.win 5).blk t).view.read (Elt Ideal) (valueK m c) := by
  obtain ⟨-, -, -, -, -, -, -, -, -, -, e0, e1⟩ := idx_facts t
  show (cfg0.win 5).cut (grid0.coords t) ((dats m 0 c).after 5 t) = _
  rw [after0_5]
  unfold outsAt0
  dsimp only
  funext y
  refine (cut5_apply t (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)) y).trans ?_
  refine (value_block c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
    (xArr m c) (yArr m c) (bArr m c) ((((cfg0.win 5).blk t).view.emb y) 0) y
    (fun j => xblk_apply m c t (ix2 (y 0) j) (ix2 ((((cfg0.win 5).blk t).view.emb y) 0) j) ?_ rfl)
    (fun k j => yblk_apply m c t (ix2 k j))
    (fun k => bblk_apply m c t (ix2 (0 : Fin 1) k))).trans ?_
  · show win0_5.index t (0 : Fin 2) * 256 + 1 * (y 0).val = t.val * 256 + (y 0).val
    rw [e0]; omega
  · show _ = valueK m c (((cfg0.win 5).blk t).view.emb y)
    unfold valueK
    rfl

/-! ## From blocks to the arrays -/

/-- An index of the first result is in point `t`'s block iff each coordinate is in the block's range on its axis. -/
theorem mem_blk4 (t : Fin cfg0.N) (i : S4096x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v0_0).slice (win0_4.rect t)).set ↔ _
  rw [View.set_slice_whole, Rect.mem_set_unit]
  exact Iff.rfl

/-- Likewise for the second result before its reshape. -/
theorem mem_blk5 (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_call0_v2_1).slice (win0_5.rect t)).set ↔ _
  rw [View.set_slice_whole, Rect.mem_set_unit]
  exact Iff.rfl

/-- Row `R` of the first result is in the block of point `R / 256`, which writes back. -/
theorem cover4 (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 256 ≤ (i 1).val ∧ (i 1).val < win0_4.index t (1 : Fin 2) * 256 + 256
    rw [e1]; omega

/-- Likewise for the second result before its reshape. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 1 ≤ (i 1).val ∧ (i 1).val < win0_5.index t (1 : Fin 2) * 1 + 1
    rw [e1]; omega

/-- The first result after the run. -/
theorem final4 (c : Dev nD) : (dats m 0 c).arrAt 4 cfg0.N = choiceK m c :=
  (dats m 0 c).arrAt_eq_of_cover 4 (choiceK m c) (fun t _ => flushed4_eq m c t) cover4

/-- The second result before its reshape, after the run. -/
theorem final5 (c : Dev nD) : (dats m 0 c).arrAt 5 cfg0.N = valueK m c :=
  (dats m 0 c).arrAt_eq_of_cover 5 (valueK m c) (fun t _ => flushed5_eq m c t) cover5

/-! ## The two results in the launch contents -/

/-- The weighted candidates depend on the rows, candidates and intercepts only through their entries. -/
theorem meanCand_score_congr {x x' : Fin 256 → EReal} {y y' : Fin 8192 → Fin 256 → EReal} {b b' k k' : Fin 8192 → EReal}
    (hx : ∀ j, x j = x' j) (hy : ∀ n j, y n j = y' n j) (hb : ∀ n, b n = b' n) (hk : ∀ n, k n = k' n) :
    Cert.Soft.meanCand (Cert.Soft.score x y b) k = Cert.Soft.meanCand (Cert.Soft.score x' y' b') k' := by
  obtain rfl : x = x' := funext hx
  obtain rfl : y = y' := funext fun n => funext (hy n)
  obtain rfl : b = b' := funext hb
  obtain rfl : k = k' := funext hk
  rfl

/-- So does the weighted score. -/
theorem meanScore_score_congr {x x' : Fin 256 → EReal} {y y' : Fin 8192 → Fin 256 → EReal} {b b' : Fin 8192 → EReal}
    (hx : ∀ j, x j = x' j) (hy : ∀ n j, y n j = y' n j) (hb : ∀ n, b n = b' n) :
    Cert.Soft.meanScore (Cert.Soft.score x y b) = Cert.Soft.meanScore (Cert.Soft.score x' y' b') := by
  obtain rfl : x = x' := funext hx
  obtain rfl : y = y' := funext fun n => funext (hy n)
  obtain rfl : b = b' := funext hb
  rfl

/-- The first result in the launch contents. -/
theorem choiceK_eq (c : Dev nD) : choiceK m c = choiceArr m c := by
  funext i
  unfold choiceK choiceArr
  exact meanCand_score_congr (fun j => congrFun (V_main_arg0 m c) (ix2 (i 0) j)) (fun n j => yArr_apply m c n j)
    (fun n => congrFun (V_main_arg2 m c) (ix2 (0 : Fin 1) n)) (fun n => yhArr_apply m c n (i 1))

/-- The second result: the reshape after the region drops the unit axis. -/
theorem valueK_eq (c : Dev nD) : shapeCast S4096 (valueK m c) shapeCasts_S4096x1_S4096 = valueArr m c := by
  funext i
  refine (shapeCast_apply (valueK m c) shapeCasts_S4096x1_S4096 i (ix2 (i 0) (0 : Fin 1))
    (by rewrite [Shape.rowMajor_val_two, Shape.rowMajor_val_one]
        show (i 0).val * 1 + 0 = (i 0).val
        omega)).trans ?_
  unfold valueK valueArr
  exact meanScore_score_congr (fun j => congrFun (V_main_arg0 m c) (ix2 (i 0) j)) (fun n j => yArr_apply m c n j)
    (fun n => congrFun (V_main_arg2 m c) (ix2 (0 : Fin 1) n))

/-- The second result after the host's reshape of what the region left. -/
theorem tail_value (c : Dev nD) :
    Pipeline.afterTail₀ cfgs (dats m) 0 (V0 m) [hostOps1] c main_v0_1 = valueArr m c := by
  unfold Pipeline.afterTail₀
  show StableHlo.after hostOps1 _ (Proc.devRef .tc main_v0_1) = _
  after_results
  have hw : Pipeline.withArrays (cfgs 0).spec c (V0 m c) (fun w => (dats m 0 c).arrAt w (cfgs 0).N) (Proc.devRef .tc main_call0_v2_1)
      = valueK m c :=
    (Pipeline.withArrays_arr spec0 launch0.win.arr_inj c (V0 m c) _ 5).trans (final5 m c)
  refine Eq.trans ?_ (valueK_eq m c)
  rw [← hw]
  rfl

/-! ## The run, read -/

/-- Every weakly fair execution of the kernel's program terminates with the two results at those functions of the
    launch contents and the arguments unchanged. -/
theorem run : θ_run (defs (F := Ideal)) (onTc (τ := τ) (main (F := Ideal))) ⟨m, fun _ => 0, ρ⟩ fun r => ∀ c : Dev nD,
      r.2.mem ((c.tc : Thread nD τ).loc main_v0_0) = choiceArr m c
      ∧ r.2.mem ((c.tc : Thread nD τ).loc main_v0_1) = valueArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4).trans ((final4 m c).trans (choiceK_eq m c)),
      ((h c).2 main_v0_1 (Pipeline.mem_restRefs_of main_v0_1 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.KernArrays

end
-- ==== Proof.RefRows.lean ====
/-
  The reference's two results read at an index: row `r` of the scores `X · Yᵀ + b` goes through the second
  arrangement of the soft selection (Soft.lean).
-/
import proofs.«115138_g88089779241353_cont_9to1c4b_404_6_alg».proof.Proof.Gen.ReferenceIdeal.Read
import proofs.«115138_g88089779241353_cont_9to1c4b_404_6_alg».proof.Proof.Soft
import Idealize.ShloMosaic.PureOps.Reduce
import Idealize.ShloMosaic.PureOps.Ideal.Laws

noncomputable section

namespace Cert.RefRows

open Idealize.ShloMosaic Idealize.ShloMosaic.ValueIdx Cert.ReferenceIdeal

/-- Row `r` of the scores, as the reference's arguments give it. -/
abbrev rowScore (x0 : (⟨S4096x256, .f32⟩ : BufTy).Contents (Elt Ideal)) (x1 : (⟨S1x8192x256, .f32⟩ : BufTy).Contents (Elt Ideal))
    (x2 : (⟨S1x8192, .f32⟩ : BufTy).Contents (Elt Ideal)) (r : Fin 4096) : Fin 8192 → EReal :=
  Cert.Soft.score (fun j : Fin 256 => x0 (ix2 r j)) (fun (k : Fin 8192) (j : Fin 256) => x1 (ix3 (0 : Fin 1) k j))
    (fun k : Fin 8192 => x2 (ix2 (0 : Fin 1) k))

section Stages

open Cert.ReferenceIdeal.Gen Cert.ReferenceIdeal.Read Cert.Soft

/-- A reduction of a `[4096, 8192]` array over its second axis, read at row `r`: the fold of the operation over the
    row's 8192 entries, from the initial value. -/
private theorem reduce_row (f : EReal → EReal → EReal) [Std.Commutative f] [Std.Associative f]
    (y : S4096x8192.Idx → EReal) (init : S_.Idx → EReal) (r : Fin 4096) :
    Host.reduce f y init reducesTo_S4096x8192_S4096_d1 h_S_ (ix1 r)
      = (Finset.univ : Finset (Fin 8192)).fold f (init (Shape.Idx.first h_S_)) (fun k => y (ix2 r k)) := by
  have h : S4096x8192.Reduces [1] S4096 := by decide
  rw [Host.reduce_eq_fold_single f y init reducesTo_S4096x8192_S4096_d1 h h_S_ (ix1 r)]
  show (Finset.univ : Finset (Fin 8192)).fold f _ (y ∘ h.lift (ix1 r)) = _
  congr 1
  funext k
  show y (h.lift (ix1 r) k) = y (ix2 r k)
  congr 1
  funext a
  apply Fin.ext
  match a with
  | ⟨0, _⟩ => rfl
  | ⟨1, _⟩ => rfl

variable (x0 : (⟨S4096x256, .f32⟩ : BufTy).Contents (Elt Ideal)) (x1 : (⟨S1x8192x256, .f32⟩ : BufTy).Contents (Elt Ideal))
  (x2 : (⟨S1x8192, .f32⟩ : BufTy).Contents (Elt Ideal))

/-- The scores: entry `(r, k)` of `X · Yᵀ + b` is the inner product of row `r` of `X` with candidate `k`, plus its intercept. -/
private theorem v4_at (r : Fin 4096) (k : Fin 8192) :
    val_main_v4 (F := Ideal) x0 x1 x2 (ix2 r k) = rowScore x0 x1 x2 r k := by
  have e0 : ∀ j : Fin 256, lidx_main_v2 (ix2 r k) j = ix2 r j := fun j => funext fun a => Fin.ext (by
    match a with
    | ⟨0, _⟩ => rfl
    | ⟨1, _⟩ => rfl)
  have e1 : ∀ j : Fin 256, idx_main_v0 (idx_main_v1 (ridx_main_v2 (ix2 r k) j)) = ix3 (0 : Fin 1) k j := fun j =>
    funext fun a => Fin.ext (by
      match a with
      | ⟨0, _⟩ => rfl
      | ⟨1, _⟩ => show (k.val * 256 + j.val) / 256 % 8192 = k.val; have := k.isLt; have := j.isLt; omega
      | ⟨2, _⟩ => show (k.val * 256 + j.val) % 256 = j.val; have := j.isLt; omega)
  have e2 : idx_main_v3 (ix2 r k) = ix2 (0 : Fin 1) k := funext fun a => Fin.ext (by
    match a with
    | ⟨0, _⟩ => rfl
    | ⟨1, _⟩ => rfl)
  rw [val_main_v4_apply, val_main_v2_apply, val_main_v3_apply, Ideal.addf_def, e2]
  show _ = (∑ j : Fin 256, x0 (ix2 r j) * x1 (ix3 (0 : Fin 1) k j)) + x2 (ix2 (0 : Fin 1) k)
  refine congrArg (· + _) (Finset.sum_congr rfl fun j _ => ?_)
  rw [val_main_v1_apply, val_main_v0_apply, e0, e1]

/-- The row's maximum … -/
private theorem v5_at (r : Fin 4096) :
    val_main_v5 (F := Ideal) x0 x1 x2 (ix1 r) = rowMax (rowScore x0 x1 x2 r) := by
  unfold val_main_v5
  rw [reduce_row]
  simp only [v4_at]
  rfl

/-- … and its minimum. -/
private theorem v7_at (r : Fin 4096) :
    val_main_v7 (F := Ideal) x0 x1 x2 (ix1 r) = rowMin (rowScore x0 x1 x2 r) := by
  unfold val_main_v7
  rw [reduce_row]
  simp only [v4_at]
  rfl

/-- The temperature of row `r`: `50` over the floored spread, clipped to `[50, 5000]`. -/
private theorem v14_at (r : Fin 4096) :
    val_main_v14 (F := Ideal) x0 x1 x2 (ix2 r (0 : Fin 1)) = temp (rowScore x0 x1 x2 r) := by
  have e6 : idx_main_v6 (ix2 r (0 : Fin 1)) = ix1 r := funext fun a => by
    match a with
    | ⟨0, _⟩ => rfl
  have e8 : idx_main_v8 (ix2 r (0 : Fin 1)) = ix1 r := funext fun a => by
    match a with
    | ⟨0, _⟩ => rfl
  rw [val_main_v14_apply, val_main_call0_v4_apply, val_main_call0_v3_apply, val_main_cst_4_apply,
    val_main_call0_v2_apply, val_main_call0_v1_apply, val_main_call0_v0_apply, val_main_cst_3_apply,
    val_main_v13_apply, val_main_v12_apply, val_main_cst_2_apply, val_main_v11_apply, val_main_v10_apply,
    val_main_cst_1_apply, val_main_v9_apply, val_main_v6_apply, val_main_v8_apply, e6, e8, v5_at, v7_at]
  rfl

/-- The scaled row. -/
private theorem v16_at (r : Fin 4096) (k : Fin 8192) :
    val_main_v16 (F := Ideal) x0 x1 x2 (ix2 r k) = rowScore x0 x1 x2 r k * temp (rowScore x0 x1 x2 r) := by
  have e15 : idx_main_v15 (ix2 r k) = ix2 r (0 : Fin 1) := funext fun a => by
    match a with
    | ⟨0, _⟩ => rfl
    | ⟨1, _⟩ => rfl
  rw [val_main_v16_apply, val_main_v15_apply, e15, v14_at, v4_at, Ideal.mulf_def]

/-- The scaled row's maximum. -/
private theorem v17_at (r : Fin 4096) :
    val_main_v17 (F := Ideal) x0 x1 x2 (ix1 r)
      = rowMax (fun k' => rowScore x0 x1 x2 r k' * temp (rowScore x0 x1 x2 r)) := by
  unfold val_main_v17
  rw [reduce_row]
  simp only [v16_at]
  rfl

/-- The scaled row shifted by its maximum. -/
private theorem v20_at (r : Fin 4096) (k : Fin 8192) :
    val_main_v20 (F := Ideal) x0 x1 x2 (ix2 r k) = shifted (rowScore x0 x1 x2 r) k := by
  have e19 : idx_main_v19 (ix2 r k) = ix2 r (0 : Fin 1) := funext fun a => by
    match a with
    | ⟨0, _⟩ => rfl
    | ⟨1, _⟩ => rfl
  have e18 : idx_main_v18 (ix2 r (0 : Fin 1)) = ix1 r := funext fun a => by
    match a with
    | ⟨0, _⟩ => rfl
  rw [val_main_v20_apply, val_main_v19_apply, e19, val_main_v18_apply, e18, v17_at, v16_at, Ideal.subf_def]
  rfl

/-- The maximum of what is left … -/
private theorem v21_at (r : Fin 4096) :
    val_main_v21 (F := Ideal) x0 x1 x2 (ix1 r) = rowMax (shifted (rowScore x0 x1 x2 r)) := by
  unfold val_main_v21
  rw [reduce_row]
  simp only [v20_at]
  rfl

/-- … guarded by `-∞`. -/
private theorem v23_at (r : Fin 4096) :
    val_main_v23 (F := Ideal) x0 x1 x2 (ix1 r) = max negInf32 (rowMax (shifted (rowScore x0 x1 x2 r))) := by
  rw [val_main_v23_apply, val_main_v22_apply, val_main_cst_7_apply, v21_at]
  rfl

/-- The row shifted a second time. -/
private theorem v26_at (r : Fin 4096) (k : Fin 8192) :
    val_main_v26 (F := Ideal) x0 x1 x2 (ix2 r k) = shifted2 (rowScore x0 x1 x2 r) k := by
  have e25 : idx_main_v25 (ix2 r k) = ix2 r (0 : Fin 1) := funext fun a => by
    match a with
    | ⟨0, _⟩ => rfl
    | ⟨1, _⟩ => rfl
  have e24 : idx_main_v24 (ix2 r (0 : Fin 1)) = ix1 r := funext fun a => by
    match a with
    | ⟨0, _⟩ => rfl
  rw [val_main_v26_apply, val_main_v25_apply, e25, val_main_v24_apply, e24, v23_at, v20_at, Ideal.subf_def]
  rfl

/-- The exponentials. -/
private theorem v27_at (r : Fin 4096) (k : Fin 8192) :
    val_main_v27 (F := Ideal) x0 x1 x2 (ix2 r k) = Ideal.exp (shifted2 (rowScore x0 x1 x2 r) k) := by
  rw [val_main_v27_apply, v26_at, Ideal.hostUnary_exp_def]

/-- Their sum, from `0`. -/
private theorem v28_at (r : Fin 4096) :
    val_main_v28 (F := Ideal) x0 x1 x2 (ix1 r)
      = zero32 + ∑ k' : Fin 8192, Ideal.exp (shifted2 (rowScore x0 x1 x2 r) k') := by
  have e28 : ∀ k : Fin 8192, idx_main_v28 (ix1 r) k = ix2 r k := fun k => funext fun a => by
    match a with
    | ⟨0, _⟩ => rfl
    | ⟨1, _⟩ => rfl
  rw [val_main_v28_apply, val_main_cst_8_apply]
  refine congrArg₂ (· + ·) rfl (Finset.sum_congr rfl fun k _ => ?_)
  rw [e28, v27_at]

/-- The normalised weights. -/
private theorem v31_at (r : Fin 4096) (k : Fin 8192) :
    val_main_v31 (F := Ideal) x0 x1 x2 (ix2 r k) = softWgt (rowScore x0 x1 x2 r) k := by
  have e30 : idx_main_v30 (ix2 r k) = ix2 r (0 : Fin 1) := funext fun a => by
    match a with
    | ⟨0, _⟩ => rfl
    | ⟨1, _⟩ => rfl
  have e29 : idx_main_v29 (ix2 r (0 : Fin 1)) = ix1 r := funext fun a => by
    match a with
    | ⟨0, _⟩ => rfl
  rw [val_main_v31_apply, val_main_v30_apply, e30, val_main_v29_apply, e29, v28_at, v27_at, Ideal.hostDivf_def]
  rfl

end Stages

open Cert.ReferenceIdeal.Read in
/-- The first result (the weighted candidates) at row `r`, coordinate `j`. -/
theorem choice_apply (x0 : (⟨S4096x256, .f32⟩ : BufTy).Contents (Elt Ideal)) (x1 : (⟨S1x8192x256, .f32⟩ : BufTy).Contents (Elt Ideal))
    (x2 : (⟨S1x8192, .f32⟩ : BufTy).Contents (Elt Ideal)) (r : Fin 4096) (j : Fin 256) :
    Cert.ReferenceIdeal.Read.val_main_v34 (F := Ideal) x0 x1 x2 (ix2 r j)
      = Cert.Soft.softCand (rowScore x0 x1 x2 r) (fun k : Fin 8192 => x1 (ix3 (0 : Fin 1) k j)) := by
  have el : ∀ k : Fin 8192, lidx_main_v34 (ix2 r j) k = ix2 r k := fun k => funext fun a => by
    match a with
    | ⟨0, _⟩ => rfl
    | ⟨1, _⟩ => rfl
  have er : ∀ k : Fin 8192, idx_main_v0 (ridx_main_v34 (ix2 r j) k) = ix3 (0 : Fin 1) k j := fun k =>
    funext fun a => Fin.ext (by
      match a with
      | ⟨0, _⟩ => rfl
      | ⟨1, _⟩ => show (k.val * 256 + j.val) / 256 % 8192 = k.val; have := k.isLt; have := j.isLt; omega
      | ⟨2, _⟩ => show (k.val * 256 + j.val) % 256 = j.val; have := j.isLt; omega)
  rw [val_main_v34_apply]
  unfold Cert.Soft.softCand
  refine Finset.sum_congr rfl fun k _ => ?_
  rw [el, v31_at, val_main_v0_apply, er]

open Cert.ReferenceIdeal.Read in
/-- The second result (the weighted score) at row `r`. -/
theorem value_apply (x0 : (⟨S4096x256, .f32⟩ : BufTy).Contents (Elt Ideal)) (x1 : (⟨S1x8192x256, .f32⟩ : BufTy).Contents (Elt Ideal))
    (x2 : (⟨S1x8192, .f32⟩ : BufTy).Contents (Elt Ideal)) (r : Fin 4096) :
    Cert.ReferenceIdeal.Read.val_main_v33 (F := Ideal) x0 x1 x2 (ix1 r)
      = Cert.Soft.softScore (rowScore x0 x1 x2 r) := by
  have e33 : ∀ k : Fin 8192, idx_main_v33 (ix1 r) k = ix2 r k := fun k => funext fun a => by
    match a with
    | ⟨0, _⟩ => rfl
    | ⟨1, _⟩ => rfl
  rw [val_main_v33_apply, val_main_cst_9_apply]
  unfold Cert.Soft.softScore
  refine congrArg₂ (· + ·) rfl (Finset.sum_congr rfl fun k _ => ?_)
  rw [e33, val_main_v32_apply, v31_at, v4_at, Ideal.mulf_def]

end Cert.RefRows

end
-- ==== Proof.Finite.lean ====
/-
  The precondition read: when every entry of the three arguments passes `|x| < +∞`, every entry is a real number.
-/
import proofs.«115138_g88089779241353_cont_9to1c4b_404_6_alg».proof.Pre_finite_inputs
import Idealize.ShloMosaic.PureOps.Ideal
import Idealize.ShloMosaic.Lib.ReduceAll

noncomputable section

namespace Cert.FiniteInputs

open Idealize.ShloMosaic

/-- The rank-0 shape has a single index. -/
private instance subsingleton_scalarIdx : Subsingleton Cert.Pre_finite_inputs.S_.Idx :=
  ⟨fun _ _ => funext fun d => d.elim0⟩

/-- The f32 pattern `0x7F800000` denotes `+∞`. -/
private theorem posInf_eq_top : Ideal.ofBits .f32 0x7F800000#32 = (⊤ : EReal) := by
  simp [Ideal.ofBits, Ideal.ieee]

/-- An extended real whose absolute value `max x (-x)` is strictly below `+∞` is a real number:
    at `⊥` the absolute value is `-⊥ = ⊤`, at `⊤` it is `⊤`, and neither is below `⊤`. -/
private theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- One array: if the conjunction over all entries of `|x| < +∞` is the bit 1, the array is the coercion of a real array. -/
private theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (h : Host.reduce IntOp.andi
        (cmpf .olt (Host.absf a) (broadcastInDim s ![] hb (constant Cert.Pre_finite_inputs.S_ .f32 0x7F800000#32)))
        (constantI Cert.Pre_finite_inputs.S_ 1 1#1) hr hu j = 1#1) :
    ∃ f : s.Idx → ℝ, a = fun i => ((f i : ℝ) : EReal) := by
  have hx : ∀ i, ∃ r : ℝ, a i = (r : EReal) := fun i =>
    real_of_abs_lt_posInf (a i) (Host.reduce_andi_all _ _ hr hu j h i)
  choose f hf using hx
  exact ⟨f, funext hf⟩

/-- If the finiteness predicate of the three arguments is all ones, each argument is the coercion of a real array. -/
theorem real_of_finite [Cert.Pre_finite_inputs.Facts]
    (a0 : FVec Ideal Cert.Pre_finite_inputs.S4096x256 .f32) (a1 : FVec Ideal Cert.Pre_finite_inputs.S1x8192x256 .f32)
    (a2 : FVec Ideal Cert.Pre_finite_inputs.S1x8192 .f32)
    (h : Cert.Pre_finite_inputs.fn (F := Ideal) a0 a1 a2 = fun _ => 1#1) :
    (∃ f : Cert.Pre_finite_inputs.S4096x256.Idx → ℝ, a0 = fun i => ((f i : ℝ) : EReal))
      ∧ (∃ f : Cert.Pre_finite_inputs.S1x8192x256.Idx → ℝ, a1 = fun i => ((f i : ℝ) : EReal))
      ∧ (∃ f : Cert.Pre_finite_inputs.S1x8192.Idx → ℝ, a2 = fun i => ((f i : ℝ) : EReal)) := by
  have h0 := congrFun h (fun d => d.elim0)
  unfold Cert.Pre_finite_inputs.fn at h0
  dsimp only [andi] at h0
  obtain ⟨h01, h2⟩ := IntOp.andi_eq_one.1 h0
  obtain ⟨h0', h1⟩ := IntOp.andi_eq_one.1 h01
  exact ⟨real_of_all a0 _ _ _ _ h0', real_of_all a1 _ _ _ _ h1, real_of_all a2 _ _ _ _ h2⟩

end Cert.FiniteInputs

end
-- ==== Proof.SoftLaw.lean ====
/-
  Over finite scores the two arrangements of the soft selection (Soft.lean) are one function.
-/
import proofs.«115138_g88089779241353_cont_9to1c4b_404_6_alg».proof.Proof.Soft

noncomputable section

namespace Cert.Soft

open Idealize.ShloMosaic

/-! ## The literals -/

private theorem zero32_eq : zero32 = 0 := by
  simp [zero32, Ideal.ofBits, Ideal.ieee]

private theorem one32_eq : one32 = ((1 : ℝ) : EReal) := by
  simp [one32, Ideal.ofBits, Ideal.ieee]
  rw [← EReal.coe_mul, ← EReal.coe_one]; congr 1; norm_num

private theorem negInf32_eq : negInf32 = ⊥ := by
  simp [negInf32, Ideal.ofBits, Ideal.ieee]

private theorem posInf32_eq : posInf32 = ⊤ := by
  simp [posInf32, Ideal.ofBits, Ideal.ieee]

private theorem tempLo_eq : tempLo = ((50 : ℝ) : EReal) := by
  simp [tempLo, Ideal.ofBits, Ideal.ieee]
  rw [← EReal.coe_mul]; congr 1; norm_num

private theorem tempHi_eq : tempHi = ((5000 : ℝ) : EReal) := by
  simp [tempHi, Ideal.ofBits, Ideal.ieee]
  rw [← EReal.coe_mul]; congr 1; norm_num

private theorem spanFloor_eq : ∃ r : ℝ, 0 < r ∧ spanFloor = (r : EReal) := by
  refine ⟨8589935 * (2 ^ 33)⁻¹, by positivity, ?_⟩
  simp [spanFloor, Ideal.ofBits, Ideal.ieee]

/-! ## Finite sums and maxima of coercions -/

/-- A finite sum of coercions is the coercion of the sum. -/
private theorem coe_sum {ι : Type} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

variable {K : Type} [Fintype K] [Nonempty K]

/-- The maximum of a row of reals: a bound that is attained. -/
private theorem rowMax_eq_of (s : K → ℝ) (M : ℝ) (hle : ∀ k, s k ≤ M) (hex : ∃ k, s k = M) :
    rowMax (fun k => (s k : EReal)) = (M : EReal) := by
  apply le_antisymm
  · refine (Finset.fold_max_le _).mpr ⟨?_, fun k _ => EReal.coe_le_coe_iff.mpr (hle k)⟩
    rw [negInf32_eq]; exact bot_le
  · obtain ⟨k, hk⟩ := hex
    exact (Finset.le_fold_max _).mpr (Or.inr ⟨k, Finset.mem_univ k, by rw [hk]⟩)

/-- Clipping any extended real to `[50, 5000]` leaves a positive real. -/
private theorem clip_coe (X : EReal) : ∃ T : ℝ, 0 < T ∧ min tempHi (max tempLo X) = (T : EReal) := by
  rw [tempLo_eq, tempHi_eq]
  have hlo : ((50 : ℝ) : EReal) ≤ min ((5000 : ℝ) : EReal) (max ((50 : ℝ) : EReal) X) :=
    le_min (EReal.coe_le_coe_iff.mpr (by norm_num)) (le_max_left _ _)
  have hhi : min ((5000 : ℝ) : EReal) (max ((50 : ℝ) : EReal) X) ≤ ((5000 : ℝ) : EReal) := min_le_left _ _
  have hne_bot : min ((5000 : ℝ) : EReal) (max ((50 : ℝ) : EReal) X) ≠ ⊥ :=
    fun h => by rw [h] at hlo; exact absurd (le_bot_iff.mp hlo) (EReal.coe_ne_bot _)
  have hne_top : min ((5000 : ℝ) : EReal) (max ((50 : ℝ) : EReal) X) ≠ ⊤ :=
    fun h => by rw [h] at hhi; exact absurd (top_le_iff.mp hhi) (EReal.coe_ne_top _)
  refine ⟨(min ((5000 : ℝ) : EReal) (max ((50 : ℝ) : EReal) X)).toReal, ?_, (EReal.coe_toReal hne_top hne_bot).symm⟩
  rw [← EReal.coe_toReal hne_top hne_bot] at hlo
  have := EReal.coe_le_coe_iff.mp hlo
  linarith

/-! ## Both arrangements over the reals -/

/-- Over a row of finite scores both arrangements use the same positive real weights `e k`, whose sum `D` is not
    zero: the first arrangement's weight is `e k`, and so is the second's exponential. -/
private theorem soft_core (s : K → ℝ) :
    ∃ (e : K → ℝ), (∑ k, e k) ≠ 0 ∧
      (∀ k, wgt (fun k => (s k : EReal)) k = (e k : EReal)) ∧
      (∀ k, Ideal.exp (shifted2 (fun k => (s k : EReal)) k) = (e k : EReal)) := by
  obtain ⟨T, hT, hTeq⟩ := clip_coe
    (Ideal.div tempLo (max (rowMax (fun k => (s k : EReal)) - rowMin (fun k => (s k : EReal))) spanFloor))
  have htemp : temp (fun k => (s k : EReal)) = (T : EReal) := hTeq
  obtain ⟨k0, -, hk0⟩ := Finset.exists_max_image Finset.univ s Finset.univ_nonempty
  have hk0' : ∀ k, s k ≤ s k0 := fun k => hk0 k (Finset.mem_univ k)
  have hM : rowMax (fun k => (s k : EReal)) = (s k0 : EReal) := rowMax_eq_of s (s k0) hk0' ⟨k0, rfl⟩
  have hMT : rowMax (fun k => ((s k * T : ℝ) : EReal)) = ((s k0 * T : ℝ) : EReal) :=
    rowMax_eq_of (fun k => s k * T) (s k0 * T) (fun k => mul_le_mul_of_nonneg_right (hk0' k) hT.le) ⟨k0, rfl⟩
  have hsh : shifted (fun k => (s k : EReal)) = fun k => ((s k * T - s k0 * T : ℝ) : EReal) := by
    funext k
    simp only [shifted, htemp, ← EReal.coe_mul, hMT, ← EReal.coe_sub]
  have hM0 : rowMax (fun k => ((s k * T - s k0 * T : ℝ) : EReal)) = ((0 : ℝ) : EReal) :=
    rowMax_eq_of (fun k => s k * T - s k0 * T) 0
      (fun k => sub_nonpos.mpr (mul_le_mul_of_nonneg_right (hk0' k) hT.le)) ⟨k0, sub_self _⟩
  refine ⟨fun k => Real.exp (s k * T - s k0 * T), ?_, ?_, ?_⟩
  · exact (Finset.sum_pos (fun k _ => Real.exp_pos _) Finset.univ_nonempty).ne'
  · intro k
    simp only [wgt, htemp, hM, ← EReal.coe_mul, ← EReal.coe_sub, Ideal.exp_coe]
  · intro k
    simp only [shifted2, hsh, hM0, negInf32_eq, EReal.coe_zero, max_eq_right bot_le, sub_zero, Ideal.exp_coe]

/-- Normalising each weight and summing against a row of reals is summing and normalising once. -/
private theorem soft_eq_mean (s c : K → ℝ) :
    (∑ k, softWgt (fun k => (s k : EReal)) k * (c k : EReal))
      = (∑ k, wgt (fun k => (s k : EReal)) k * (c k : EReal)) * recipSum (fun k => (s k : EReal)) := by
  obtain ⟨e, hD, hw, hx⟩ := soft_core s
  simp only [softWgt, recipSum, hw, hx, zero32_eq, one32_eq, zero_add, coe_sum, Ideal.div_coe hD,
    ← EReal.coe_mul, EReal.coe_eq_coe_iff]
  rw [Finset.sum_mul]
  refine Finset.sum_congr rfl fun k _ => ?_
  ring

/-! ## The statements -/

/-- A score of finite data is the finite real it is over the reals. -/
theorem score_coe {J : Type} [Fintype J] (x : J → ℝ) (y : K → J → ℝ) (b : K → ℝ) (k : K) :
    score (fun j => (x j : EReal)) (fun k j => (y k j : EReal)) (fun k => (b k : EReal)) k
      = (((∑ j, x j * y k j) + b k : ℝ) : EReal) := by
  simp only [score, ← EReal.coe_mul, coe_sum, ← EReal.coe_add]

/-- The weighted mean of the scores: normalising each weight and summing is summing and normalising once. -/
theorem softScore_eq_meanScore (s : K → ℝ) :
    softScore (fun k => (s k : EReal)) = meanScore (fun k => (s k : EReal)) := by
  rw [softScore, meanScore, zero32_eq, zero_add]
  exact soft_eq_mean s s

/-- The same for a coordinate of the candidates. -/
theorem softCand_eq_meanCand (s c : K → ℝ) :
    softCand (fun k => (s k : EReal)) (fun k => (c k : EReal))
      = meanCand (fun k => (s k : EReal)) (fun k => (c k : EReal)) := by
  rw [softCand, meanCand]
  exact soft_eq_mean s c

end Cert.Soft

end
-- ==== Proof.Bridge.lean ====
/-
  A row of the three arguments, when every entry is a real number: its scores are real, so the second arrangement
  of the soft selection (the reference's) is the first (the kernel's) — for the weighted candidates and for the
  weighted score.
-/
import proofs.«115138_g88089779241353_cont_9to1c4b_404_6_alg».proof.Proof.SoftLaw
import Idealize.ShloMosaic.Lib.ValueIdx

noncomputable section

namespace Cert.Bridge

open Idealize.ShloMosaic Idealize.ShloMosaic.ValueIdx Cert.Soft

/-- Over finite data the two arrangements agree on a coordinate of the candidates … -/
theorem row_cand {K J : Type} [Fintype K] [Nonempty K] [Fintype J] (x : J → ℝ) (y : K → J → ℝ) (b : K → ℝ) (c : K → ℝ) :
    softCand (score (fun j => (x j : EReal)) (fun k j => (y k j : EReal)) (fun k => (b k : EReal))) (fun k => (c k : EReal))
      = meanCand (score (fun j => (x j : EReal)) (fun k j => (y k j : EReal)) (fun k => (b k : EReal))) (fun k => (c k : EReal)) := by
  have hs : score (fun j => (x j : EReal)) (fun k j => (y k j : EReal)) (fun k => (b k : EReal))
      = fun k => (((∑ j, x j * y k j) + b k : ℝ) : EReal) := funext fun k => score_coe x y b k
  rw [hs]
  exact softCand_eq_meanCand _ c

/-- … and on the scores. -/
theorem row_score {K J : Type} [Fintype K] [Nonempty K] [Fintype J] (x : J → ℝ) (y : K → J → ℝ) (b : K → ℝ) :
    softScore (score (fun j => (x j : EReal)) (fun k j => (y k j : EReal)) (fun k => (b k : EReal)))
      = meanScore (score (fun j => (x j : EReal)) (fun k j => (y k j : EReal)) (fun k => (b k : EReal))) := by
  have hs : score (fun j => (x j : EReal)) (fun k j => (y k j : EReal)) (fun k => (b k : EReal))
      = fun k => (((∑ j, x j * y k j) + b k : ℝ) : EReal) := funext fun k => score_coe x y b k
  rw [hs]
  exact softScore_eq_meanScore _

/-- Row `r`, coordinate `j`, of arrays of the arguments' shapes whose entries are all real. -/
theorem choice_agree (X : (⟨2, ![4096, 256]⟩ : Shape).Idx → EReal) (Y : (⟨3, ![1, 8192, 256]⟩ : Shape).Idx → EReal)
    (B : (⟨2, ![1, 8192]⟩ : Shape).Idx → EReal)
    (hX : ∃ f : (⟨2, ![4096, 256]⟩ : Shape).Idx → ℝ, X = fun i => ((f i : ℝ) : EReal))
    (hY : ∃ f : (⟨3, ![1, 8192, 256]⟩ : Shape).Idx → ℝ, Y = fun i => ((f i : ℝ) : EReal))
    (hB : ∃ f : (⟨2, ![1, 8192]⟩ : Shape).Idx → ℝ, B = fun i => ((f i : ℝ) : EReal)) (r : Fin 4096) (j : Fin 256) :
    softCand (score (fun j : Fin 256 => X (ix2 r j)) (fun (k : Fin 8192) (j : Fin 256) => Y (ix3 (0 : Fin 1) k j))
        (fun k : Fin 8192 => B (ix2 (0 : Fin 1) k))) (fun k : Fin 8192 => Y (ix3 (0 : Fin 1) k j))
      = meanCand (score (fun j : Fin 256 => X (ix2 r j)) (fun (k : Fin 8192) (j : Fin 256) => Y (ix3 (0 : Fin 1) k j))
        (fun k : Fin 8192 => B (ix2 (0 : Fin 1) k))) (fun k : Fin 8192 => Y (ix3 (0 : Fin 1) k j)) := by
  obtain ⟨f, rfl⟩ := hX
  obtain ⟨g, rfl⟩ := hY
  obtain ⟨h, rfl⟩ := hB
  exact row_cand (fun j : Fin 256 => f (ix2 r j)) (fun (k : Fin 8192) (j : Fin 256) => g (ix3 (0 : Fin 1) k j))
    (fun k : Fin 8192 => h (ix2 (0 : Fin 1) k)) (fun k : Fin 8192 => g (ix3 (0 : Fin 1) k j))

theorem value_agree (X : (⟨2, ![4096, 256]⟩ : Shape).Idx → EReal) (Y : (⟨3, ![1, 8192, 256]⟩ : Shape).Idx → EReal)
    (B : (⟨2, ![1, 8192]⟩ : Shape).Idx → EReal)
    (hX : ∃ f : (⟨2, ![4096, 256]⟩ : Shape).Idx → ℝ, X = fun i => ((f i : ℝ) : EReal))
    (hY : ∃ f : (⟨3, ![1, 8192, 256]⟩ : Shape).Idx → ℝ, Y = fun i => ((f i : ℝ) : EReal))
    (hB : ∃ f : (⟨2, ![1, 8192]⟩ : Shape).Idx → ℝ, B = fun i => ((f i : ℝ) : EReal)) (r : Fin 4096) :
    softScore (score (fun j : Fin 256 => X (ix2 r j)) (fun (k : Fin 8192) (j : Fin 256) => Y (ix3 (0 : Fin 1) k j))
        (fun k : Fin 8192 => B (ix2 (0 : Fin 1) k)))
      = meanScore (score (fun j : Fin 256 => X (ix2 r j)) (fun (k : Fin 8192) (j : Fin 256) => Y (ix3 (0 : Fin 1) k j))
        (fun k : Fin 8192 => B (ix2 (0 : Fin 1) k))) := by
  obtain ⟨f, rfl⟩ := hX
  obtain ⟨g, rfl⟩ := hY
  obtain ⟨h, rfl⟩ := hB
  exact row_score (fun j : Fin 256 => f (ix2 r j)) (fun (k : Fin 8192) (j : Fin 256) => g (ix3 (0 : Fin 1) k j))
    (fun k : Fin 8192 => h (ix2 (0 : Fin 1) k))

end Cert.Bridge

end
-- ==== Proof.lean ====
/-
  The kernel — scores `X · Yᵀ + b` walked in eight tiles of 1024 candidates, an adaptive-temperature soft selection
  accumulated tile by tile, one reciprocal at the end — against its reference, which shifts the scaled scores twice,
  normalises every weight and then sums. On the extended reals, over finite inputs, both give the same two arrays:

  * the reference's results, read at an index through its generated run, are the second arrangement of the row's
    soft selection (RefRows.lean);
  * the kernel's results, read off its frame run block by block and row by row, are the first arrangement
    (KernArrays.lean over KernRow.lean, KernPay.lean, KernScratch.lean, KernOps.lean, TileSoft.lean, Tiles.lean);
  * finite inputs have finite scores, and on finite scores the two arrangements agree (Finite.lean, SoftLaw.lean,
    Bridge.lean): the temperature is a real in [50, 5000], so scaling commutes with the row's maximum, the second
    shift is by zero, every weight and their sum are positive reals, and dividing each weight by the sum is
    multiplying the sums by its reciprocal.

  The three frames are the generated ones (the reference's is its generated run with the results dropped); the
  idealization rewrote nothing, so there is nothing to preserve.
-/
import proofs.«115138_g88089779241353_cont_9to1c4b_404_6_alg».proof.Defs
import proofs.«115138_g88089779241353_cont_9to1c4b_404_6_alg».proof.Proof.Gen.Kernel
import proofs.«115138_g88089779241353_cont_9to1c4b_404_6_alg».proof.Proof.Gen.Kernel.Frame
import proofs.«115138_g88089779241353_cont_9to1c4b_404_6_alg».proof.Proof.Gen.KernelIdeal
import proofs.«115138_g88089779241353_cont_9to1c4b_404_6_alg».proof.Proof.Gen.KernelIdeal.Frame
import proofs.«115138_g88089779241353_cont_9to1c4b_404_6_alg».proof.Proof.Gen.ReferenceIdeal
import proofs.«115138_g88089779241353_cont_9to1c4b_404_6_alg».proof.Proof.Gen.ReferenceIdeal.Run
import proofs.«115138_g88089779241353_cont_9to1c4b_404_6_alg».proof.Proof.Gen.ReferenceIdeal.Read
import proofs.«115138_g88089779241353_cont_9to1c4b_404_6_alg».proof.Proof.Gen.Pre_finite_inputs
import proofs.«115138_g88089779241353_cont_9to1c4b_404_6_alg».proof.Proof.KernArrays
import proofs.«115138_g88089779241353_cont_9to1c4b_404_6_alg».proof.Proof.RefRows
import proofs.«115138_g88089779241353_cont_9to1c4b_404_6_alg».proof.Proof.Finite
import proofs.«115138_g88089779241353_cont_9to1c4b_404_6_alg».proof.Proof.Bridge
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end at the first arrangement's arrays of the kernel's launch contents: the kernel by its run, the
    reference by its generated run read at an index, the agreement of the arguments, and the two arrangements'
    agreement on finite data. -/
theorem algebraic : Cert.algebraic_KernelIdeal_ReferenceIdeal := by
  intro m ρ m' ρ' hpre hagree
  refine ⟨fun c => Cert.KernArrays.choiceArr m c, fun c => Cert.KernArrays.valueArr m c, Cert.KernArrays.run m ρ, ?_⟩
  refine (θ_run Cert.ReferenceIdeal.defs _ _).mono (fun _ h c => ?_) (Cert.ReferenceIdeal.Value.run (F := Ideal) m' ρ')
  obtain ⟨hX, hY, hB⟩ := Cert.FiniteInputs.real_of_finite _ _ _ (hpre c)
  refine ⟨(h c).1.trans ?_, (h c).2.1.trans ?_, (h c).2.2⟩
  · rw [Cert.ReferenceIdeal.Read.val_main_v34_eq, (hagree c).1, (hagree c).2.1, (hagree c).2.2]
    funext i
    obtain ⟨r, j, rfl⟩ : ∃ (r : Fin 4096) (j : Fin 256), i = ix2 r j := ⟨i 0, i 1, eq_ix2 i⟩
    rw [Cert.RefRows.choice_apply]
    exact Cert.Bridge.choice_agree _ _ _ hX hY hB r j
  · rw [Cert.ReferenceIdeal.Read.val_main_v33_eq, (hagree c).1, (hagree c).2.1, (hagree c).2.2]
    funext i
    obtain ⟨r, rfl⟩ : ∃ r : Fin 4096, i = ix1 r := ⟨i 0, eq_ix1 i⟩
    rw [Cert.RefRows.value_apply]
    exact Cert.Bridge.value_agree _ _ _ hX hY hB r

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
